-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v15)) (v1 : (c : Dev Cert.KernelIdeal.nD) → Buf (Elt Ideal) ((c.tc : Thread Cert.KernelIdeal.nD Cert.KernelIdeal.τ).loc Cert.KernelIdeal.main_v18)) (v2 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_v18) = v1 c
          ∧ r.2.mem ((c.tc : Thread Cert.KernelIdeal.nD Cert.KernelIdeal.τ).loc Cert.KernelIdeal.main_v21) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v73) = v0 c
          ∧ r.2.mem ((c.tc : Thread Cert.ReferenceIdeal.nD Cert.ReferenceIdeal.τ).loc Cert.ReferenceIdeal.main_v74) = v1 c
          ∧ r.2.mem ((c.tc : Thread Cert.ReferenceIdeal.nD Cert.ReferenceIdeal.τ).loc Cert.ReferenceIdeal.main_v75) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2000000x1 : Shape := ⟨2, ![2000000, 1]⟩
abbrev S3x50 : Shape := ⟨2, ![3, 50]⟩
abbrev S50 : Shape := ⟨1, ![50]⟩
abbrev S7x50x50 : Shape := ⟨3, ![7, 50, 50]⟩
abbrev S7x50 : Shape := ⟨2, ![7, 50]⟩
abbrev S50x3 : Shape := ⟨2, ![50, 3]⟩
abbrev S3 : Shape := ⟨1, ![3]⟩
abbrev S_ : Shape := ⟨0, ![]⟩

class Facts : Prop where
  bcast_S_S2000000x1 : S_.BroadcastsInDim S2000000x1 (![] : Fin 0 → Fin S2000000x1.rank)
  reducesTo_S2000000x1_S_d0_1 : S2000000x1.ReducesTo [0, 1] S_
  h_S_ : 0 < S_.numel
  bcast_S_S3x50 : S_.BroadcastsInDim S3x50 (![] : Fin 0 → Fin S3x50.rank)
  reducesTo_S3x50_S_d0_1 : S3x50.ReducesTo [0, 1] S_
  bcast_S_S50 : S_.BroadcastsInDim S50 (![] : Fin 0 → Fin S50.rank)
  reducesTo_S50_S_d0 : S50.ReducesTo [0] S_
  bcast_S_S7x50x50 : S_.BroadcastsInDim S7x50x50 (![] : Fin 0 → Fin S7x50x50.rank)
  reducesTo_S7x50x50_S_d0_1_2 : S7x50x50.ReducesTo [0, 1, 2] S_
  bcast_S_S7x50 : S_.BroadcastsInDim S7x50 (![] : Fin 0 → Fin S7x50.rank)
  reducesTo_S7x50_S_d0_1 : S7x50.ReducesTo [0, 1] S_
  bcast_S_S50x3 : S_.BroadcastsInDim S50x3 (![] : Fin 0 → Fin S50x3.rank)
  reducesTo_S50x3_S_d0_1 : S50x3.ReducesTo [0, 1] S_
  bcast_S_S3 : S_.BroadcastsInDim S3 (![] : Fin 0 → Fin S3.rank)
  reducesTo_S3_S_d0 : S3.ReducesTo [0] S_

variable [Facts]

def fn_part2 {F : FTy → Type} [FloatOps F] (main_arg7 : FVec F S50x3 .f32) (main_arg8 : FVec F S3 .f32) (main_v33 : IVec S_ 1) : IVec S_ 1 :=
  let main_v34 : FVec F S50x3 .f32 := Host.absf main_arg7
  let main_cst_12 : FVec F S_ .f32 := constant S_ .f32 0x7F800000#32
  let main_v35 : FVec F S50x3 .f32 := broadcastInDim S50x3 ![] bcast_S_S50x3 main_cst_12
  let main_v36 : IVec S50x3 1 := cmpf .olt main_v34 main_v35
  let main_c_13 : IVec S_ 1 := constantI S_ 1 1#1
  let main_v37 : IVec S_ 1 := (fun x v => Host.reduce IntOp.andi x v reducesTo_S50x3_S_d0_1 h_S_) main_v36 main_c_13
  let main_v38 : IVec S_ 1 := andi main_v33 main_v37
  let main_v39 : FVec F S3 .f32 := Host.absf main_arg8
  let main_cst_14 : FVec F S_ .f32 := constant S_ .f32 0x7F800000#32
  let main_v40 : FVec F S3 .f32 := broadcastInDim S3 ![] bcast_S_S3 main_cst_14
  let main_v41 : IVec S3 1 := cmpf .olt main_v39 main_v40
  let main_c_15 : IVec S_ 1 := constantI S_ 1 1#1
  let main_v42 : IVec S_ 1 := (fun x v => Host.reduce IntOp.andi x v reducesTo_S3_S_d0 h_S_) main_v41 main_c_15
  let main_v43 : IVec S_ 1 := andi main_v38 main_v42
  main_v43

def fn_part1 {F : FTy → Type} [FloatOps F] (main_arg4 : FVec F S50 .f32) (main_arg5 : FVec F S7x50x50 .f32) (main_arg6 : FVec F S7x50 .f32) (main_arg7 : FVec F S50x3 .f32) (main_arg8 : FVec F S3 .f32) (main_v13 : IVec S_ 1) (main_v16 : IVec S3x50 1) : IVec S_ 1 :=
  let main_c_5 : IVec S_ 1 := constantI S_ 1 1#1
  let main_v17 : IVec S_ 1 := (fun x v => Host.reduce IntOp.andi x v reducesTo_S3x50_S_d0_1 h_S_) main_v16 main_c_5
  let main_v18 : IVec S_ 1 := andi main_v13 main_v17
  let main_v19 : FVec F S50 .f32 := Host.absf main_arg4
  let main_cst_6 : FVec F S_ .f32 := constant S_ .f32 0x7F800000#32
  let main_v20 : FVec F S50 .f32 := broadcastInDim S50 ![] bcast_S_S50 main_cst_6
  let main_v21 : IVec S50 1 := cmpf .olt main_v19 main_v20
  let main_c_7 : IVec S_ 1 := constantI S_ 1 1#1
  let main_v22 : IVec S_ 1 := (fun x v => Host.reduce IntOp.andi x v reducesTo_S50_S_d0 h_S_) main_v21 main_c_7
  let main_v23 : IVec S_ 1 := andi main_v18 main_v22
  let main_v24 : FVec F S7x50x50 .f32 := Host.absf main_arg5
  let main_cst_8 : FVec F S_ .f32 := constant S_ .f32 0x7F800000#32
  let main_v25 : FVec F S7x50x50 .f32 := broadcastInDim S7x50x50 ![] bcast_S_S7x50x50 main_cst_8
  let main_v26 : IVec S7x50x50 1 := cmpf .olt main_v24 main_v25
  let main_c_9 : IVec S_ 1 := constantI S_ 1 1#1
  let main_v27 : IVec S_ 1 := (fun x v => Host.reduce IntOp.andi x v reducesTo_S7x50x50_S_d0_1_2 h_S_) main_v26 main_c_9
  let main_v28 : IVec S_ 1 := andi main_v23 main_v27
  let main_v29 : FVec F S7x50 .f32 := Host.absf main_arg6
  let main_cst_10 : FVec F S_ .f32 := constant S_ .f32 0x7F800000#32
  let main_v30 : FVec F S7x50 .f32 := broadcastInDim S7x50 ![] bcast_S_S7x50 main_cst_10
  let main_v31 : IVec S7x50 1 := cmpf .olt main_v29 main_v30
  let main_c_11 : IVec S_ 1 := constantI S_ 1 1#1
  let main_v32 : IVec S_ 1 := (fun x v => Host.reduce IntOp.andi x v reducesTo_S7x50_S_d0_1 h_S_) main_v31 main_c_11
  let main_v33 : IVec S_ 1 := andi main_v28 main_v32
  fn_part2 (F := F) main_arg7 main_arg8 main_v33

def fn {F : FTy → Type} [FloatOps F] (main_arg0 : FVec F S2000000x1 .f32) (main_arg1 : FVec F S2000000x1 .f32) (main_arg2 : FVec F S2000000x1 .f32) (main_arg3 : FVec F S3x50 .f32) (main_arg4 : FVec F S50 .f32) (main_arg5 : FVec F S7x50x50 .f32) (main_arg6 : FVec F S7x50 .f32) (main_arg7 : FVec F S50x3 .f32) (main_arg8 : FVec F S3 .f32) : IVec S_ 1 :=
  let main_v0 : FVec F S2000000x1 .f32 := Host.absf main_arg0
  let main_cst : FVec F S_ .f32 := constant S_ .f32 0x7F800000#32
  let main_v1 : FVec F S2000000x1 .f32 := broadcastInDim S2000000x1 ![] bcast_S_S2000000x1 main_cst
  let main_v2 : IVec S2000000x1 1 := cmpf .olt main_v0 main_v1
  let main_c : IVec S_ 1 := constantI S_ 1 1#1
  let main_v3 : IVec S_ 1 := (fun x v => Host.reduce IntOp.andi x v reducesTo_S2000000x1_S_d0_1 h_S_) main_v2 main_c
  let main_v4 : FVec F S2000000x1 .f32 := Host.absf main_arg1
  let main_cst_0 : FVec F S_ .f32 := constant S_ .f32 0x7F800000#32
  let main_v5 : FVec F S2000000x1 .f32 := broadcastInDim S2000000x1 ![] bcast_S_S2000000x1 main_cst_0
  let main_v6 : IVec S2000000x1 1 := cmpf .olt main_v4 main_v5
  let main_c_1 : IVec S_ 1 := constantI S_ 1 1#1
  let main_v7 : IVec S_ 1 := (fun x v => Host.reduce IntOp.andi x v reducesTo_S2000000x1_S_d0_1 h_S_) main_v6 main_c_1
  let main_v8 : IVec S_ 1 := andi main_v3 main_v7
  let main_v9 : FVec F S2000000x1 .f32 := Host.absf main_arg2
  let main_cst_2 : FVec F S_ .f32 := constant S_ .f32 0x7F800000#32
  let main_v10 : FVec F S2000000x1 .f32 := broadcastInDim S2000000x1 ![] bcast_S_S2000000x1 main_cst_2
  let main_v11 : IVec S2000000x1 1 := cmpf .olt main_v9 main_v10
  let main_c_3 : IVec S_ 1 := constantI S_ 1 1#1
  let main_v12 : IVec S_ 1 := (fun x v => Host.reduce IntOp.andi x v reducesTo_S2000000x1_S_d0_1 h_S_) main_v11 main_c_3
  let main_v13 : IVec S_ 1 := andi main_v8 main_v12
  let main_v14 : FVec F S3x50 .f32 := Host.absf main_arg3
  let main_cst_4 : FVec F S_ .f32 := constant S_ .f32 0x7F800000#32
  let main_v15 : FVec F S3x50 .f32 := broadcastInDim S3x50 ![] bcast_S_S3x50 main_cst_4
  let main_v16 : IVec S3x50 1 := cmpf .olt main_v14 main_v15
  fn_part1 (F := F) main_arg4 main_arg5 main_arg6 main_arg7 main_arg8 main_v13 main_v16
-- ==== Kernel.lean ====
abbrev S2000000x1 : Shape := ⟨2, ![2000000, 1]⟩
abbrev S3x50 : Shape := ⟨2, ![3, 50]⟩
abbrev S50 : Shape := ⟨1, ![50]⟩
abbrev S7x50x50 : Shape := ⟨3, ![7, 50, 50]⟩
abbrev S7x50 : Shape := ⟨2, ![7, 50]⟩
abbrev S50x3 : Shape := ⟨2, ![50, 3]⟩
abbrev S3 : Shape := ⟨1, ![3]⟩
abbrev S1x2000000 : Shape := ⟨2, ![1, 2000000]⟩
abbrev S50x1 : Shape := ⟨2, ![50, 1]⟩
abbrev S7x50x1 : Shape := ⟨3, ![7, 50, 1]⟩
abbrev S3x1 : Shape := ⟨2, ![3, 1]⟩
abbrev S3x2000000 : Shape := ⟨2, ![3, 2000000]⟩
abbrev S1x16000 : Shape := ⟨2, ![1, 16000]⟩
abbrev S3x16000 : Shape := ⟨2, ![3, 16000]⟩
abbrev S50x16000 : Shape := ⟨2, ![50, 16000]⟩
abbrev S1x50x50 : Shape := ⟨3, ![1, 50, 50]⟩
abbrev S50x50 : Shape := ⟨2, ![50, 50]⟩
abbrev S1x50x1 : Shape := ⟨3, ![1, 50, 1]⟩
abbrev S2000000 : Shape := ⟨1, ![2000000]⟩

abbrev nBuf : Space → Nat
  | .hbm => 31
  | .vmem => 14
  | .smem => 0
  | _ => 0

abbrev bufTy : (tb : Table) → Fin (tcTables nBuf tb) → BufTy
  | .hbm, ⟨0, _⟩ => ⟨S2000000x1, .f32⟩
  | .hbm, ⟨1, _⟩ => ⟨S2000000x1, .f32⟩
  | .hbm, ⟨2, _⟩ => ⟨S2000000x1, .f32⟩
  | .hbm, ⟨3, _⟩ => ⟨S3x50, .f32⟩
  | .hbm, ⟨4, _⟩ => ⟨S50, .f32⟩
  | .hbm, ⟨5, _⟩ => ⟨S7x50x50, .f32⟩
  | .hbm, ⟨6, _⟩ => ⟨S7x50, .f32⟩
  | .hbm, ⟨7, _⟩ => ⟨S50x3, .f32⟩
  | .hbm, ⟨8, _⟩ => ⟨S3, .f32⟩
  | .hbm, ⟨9, _⟩ => ⟨S1x2000000, .f32⟩
  | .hbm, ⟨10, _⟩ => ⟨S1x2000000, .f32⟩
  | .hbm, ⟨11, _⟩ => ⟨S1x2000000, .f32⟩
  | .hbm, ⟨12, _⟩ => ⟨S50x3, .f32⟩
  | .hbm, ⟨13, _⟩ => ⟨S50x3, .bf16⟩
  | .hbm, ⟨14, _⟩ => ⟨S50x1, .f32⟩
  | .hbm, ⟨15, _⟩ => ⟨S7x50x50, .f32⟩
  | .hbm, ⟨16, _⟩ => ⟨S7x50x50, .bf16⟩
  | .hbm, ⟨17, _⟩ => ⟨S7x50x1, .f32⟩
  | .hbm, ⟨18, _⟩ => ⟨S3x50, .f32⟩
  | .hbm, ⟨19, _⟩ => ⟨S3x50, .bf16⟩
  | .hbm, ⟨20, _⟩ => ⟨S3x1, .f32⟩
  | .hbm, ⟨21, _⟩ => ⟨S3x2000000, .f32⟩
  | .hbm, ⟨22, _⟩ => ⟨S1x2000000, .f32⟩
  | .hbm, ⟨23, _⟩ => ⟨S2000000, .f32⟩
  | .hbm, ⟨24, _⟩ => ⟨S2000000x1, .f32⟩
  | .hbm, ⟨25, _⟩ => ⟨S1x2000000, .f32⟩
  | .hbm, ⟨26, _⟩ => ⟨S2000000, .f32⟩
  | .hbm, ⟨27, _⟩ => ⟨S2000000x1, .f32⟩
  | .hbm, ⟨28, _⟩ => ⟨S1x2000000, .f32⟩
  | .hbm, ⟨29, _⟩ => ⟨S2000000, .f32⟩
  | .hbm, ⟨30, _⟩ => ⟨S2000000x1, .f32⟩
  | .local _ .vmem, ⟨0, _⟩ => ⟨S1x16000, .f32⟩
  | .local _ .vmem, ⟨1, _⟩ => ⟨S1x16000, .f32⟩
  | .local _ .vmem, ⟨2, _⟩ => ⟨S1x16000, .f32⟩
  | .local _ .vmem, ⟨3, _⟩ => ⟨S1x16000, .f32⟩
  | .local _ .vmem, ⟨4, _⟩ => ⟨S1x16000, .f32⟩
  | .local _ .vmem, ⟨5, _⟩ => ⟨S1x16000, .f32⟩
  | .local _ .vmem, ⟨6, _⟩ => ⟨S50x3, .bf16⟩
  | .local _ .vmem, ⟨7, _⟩ => ⟨S50x1, .f32⟩
  | .local _ .vmem, ⟨8, _⟩ => ⟨S7x50x50, .bf16⟩
  | .local _ .vmem, ⟨9, _⟩ => ⟨S7x50x1, .f32⟩
  | .local _ .vmem, ⟨10, _⟩ => ⟨S3x50, .bf16⟩
  | .local _ .vmem, ⟨11, _⟩ => ⟨S3x1, .f32⟩
  | .local _ .vmem, ⟨12, _⟩ => ⟨S3x16000, .f32⟩
  | .local _ .vmem, ⟨13, _⟩ => ⟨S3x16000, .f32⟩
  | _, _ => ⟨S2000000x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨1, ![125], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S1x16000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x16000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x16000 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S50x3 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S50x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S7x50x50 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S7x50x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S3x50 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S3x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S3x16000 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  shapeCasts_S2000000x1_S1x2000000 : S2000000x1.ShapeCasts S1x2000000
  transposes_S3x50_S50x3_1_0 : S3x50.Transposes [1, 0] S50x3
  bitsLt_bf16_f32 : FTy.bits .bf16 < FTy.bits .f32
  shapeCasts_S50_S50x1 : S50.ShapeCasts S50x1
  transposes_S7x50x50_S7x50x50_0_2_1 : S7x50x50.Transposes [0, 2, 1] S7x50x50
  shapeCasts_S7x50_S7x50x1 : S7x50.ShapeCasts S7x50x1
  transposes_S50x3_S3x50_1_0 : S50x3.Transposes [1, 0] S3x50
  shapeCasts_S3_S3x1 : S3.ShapeCasts S3x1
  inb_S1x16000_S1x16000_0_0 : ∀ a, (![0, 0] : Fin 2 → Nat) a + S1x16000.size a ≤ S1x16000.size a
  h_S1x16000 : 0 < S1x16000.numel
  shapeCasts_S1x16000_S1x16000 : S1x16000.ShapeCasts S1x16000
  concatenates_S1x16000_S1x16000_S1x16000_S3x16000_d0 : Shape.Concatenates [S1x16000, S1x16000, S1x16000] S3x16000 0
  inb_S50x3_S50x3_0_0 : ∀ a, (![0, 0] : Fin 2 → Nat) a + S50x3.size a ≤ S50x3.size a
  h_S50x3 : 0 < S50x3.numel
  shapeCasts_S50x3_S50x3 : S50x3.ShapeCasts S50x3
  inb_S50x1_S50x1_0_0 : ∀ a, (![0, 0] : Fin 2 → Nat) a + S50x1.size a ≤ S50x1.size a
  h_S50x1 : 0 < S50x1.numel
  shapeCasts_S50x1_S50x1 : S50x1.ShapeCasts S50x1
  broadcasts_S50x1_S50x16000 : S50x1.Broadcasts S50x16000
  inb_S7x50x50_S1x50x50_0_0_0 : ∀ a, (![0, 0, 0] : Fin 3 → Nat) a + S1x50x50.size a ≤ S7x50x50.size a
  h_S1x50x50 : 0 < S1x50x50.numel
  shapeCasts_S1x50x50_S50x50 : S1x50x50.ShapeCasts S50x50
  inb_S7x50x1_S1x50x1_0_0_0 : ∀ a, (![0, 0, 0] : Fin 3 → Nat) a + S1x50x1.size a ≤ S7x50x1.size a
  h_S1x50x1 : 0 < S1x50x1.numel
  shapeCasts_S1x50x1_S50x1 : S1x50x1.ShapeCasts S50x1
  inb_S7x50x50_S1x50x50_1_0_0 : ∀ a, (![1, 0, 0] : Fin 3 → Nat) a + S1x50x50.size a ≤ S7x50x50.size a
  inb_S7x50x1_S1x50x1_1_0_0 : ∀ a, (![1, 0, 0] : Fin 3 → Nat) a + S1x50x1.size a ≤ S7x50x1.size a
  inb_S7x50x50_S1x50x50_2_0_0 : ∀ a, (![2, 0, 0] : Fin 3 → Nat) a + S1x50x50.size a ≤ S7x50x50.size a
  inb_S7x50x1_S1x50x1_2_0_0 : ∀ a, (![2, 0, 0] : Fin 3 → Nat) a + S1x50x1.size a ≤ S7x50x1.size a
  inb_S7x50x50_S1x50x50_3_0_0 : ∀ a, (![3, 0, 0] : Fin 3 → Nat) a + S1x50x50.size a ≤ S7x50x50.size a
  inb_S7x50x1_S1x50x1_3_0_0 : ∀ a, (![3, 0, 0] : Fin 3 → Nat) a + S1x50x1.size a ≤ S7x50x1.size a
  inb_S7x50x50_S1x50x50_4_0_0 : ∀ a, (![4, 0, 0] : Fin 3 → Nat) a + S1x50x50.size a ≤ S7x50x50.size a
  inb_S7x50x1_S1x50x1_4_0_0 : ∀ a, (![4, 0, 0] : Fin 3 → Nat) a + S1x50x1.size a ≤ S7x50x1.size a
  inb_S7x50x50_S1x50x50_5_0_0 : ∀ a, (![5, 0, 0] : Fin 3 → Nat) a + S1x50x50.size a ≤ S7x50x50.size a
  inb_S7x50x1_S1x50x1_5_0_0 : ∀ a, (![5, 0, 0] : Fin 3 → Nat) a + S1x50x1.size a ≤ S7x50x1.size a
  inb_S7x50x50_S1x50x50_6_0_0 : ∀ a, (![6, 0, 0] : Fin 3 → Nat) a + S1x50x50.size a ≤ S7x50x50.size a
  inb_S7x50x1_S1x50x1_6_0_0 : ∀ a, (![6, 0, 0] : Fin 3 → Nat) a + S1x50x1.size a ≤ S7x50x1.size a
  inb_S3x50_S3x50_0_0 : ∀ a, (![0, 0] : Fin 2 → Nat) a + S3x50.size a ≤ S3x50.size a
  h_S3x50 : 0 < S3x50.numel
  shapeCasts_S3x50_S3x50 : S3x50.ShapeCasts S3x50
  inb_S3x1_S3x1_0_0 : ∀ a, (![0, 0] : Fin 2 → Nat) a + S3x1.size a ≤ S3x1.size a
  h_S3x1 : 0 < S3x1.numel
  shapeCasts_S3x1_S3x1 : S3x1.ShapeCasts S3x1
  broadcasts_S3x1_S3x16000 : S3x1.Broadcasts S3x16000
  inb_S3x16000_S3x16000_0_0 : ∀ a, (![0, 0] : Fin 2 → Nat) a + S3x16000.size a ≤ S3x16000.size a
  h_S3x16000 : 0 < S3x16000.numel
  slices_S3x2000000_S1x2000000_0_0 : S3x2000000.Slices ![0, 0] S1x2000000
  shapeCasts_S1x2000000_S2000000 : S1x2000000.ShapeCasts S2000000
  shapeCasts_S2000000_S2000000x1 : S2000000.ShapeCasts S2000000x1
  slices_S3x2000000_S1x2000000_1_0 : S3x2000000.Slices ![1, 0] S1x2000000
  slices_S3x2000000_S1x2000000_2_0 : S3x2000000.Slices ![2, 0] S1x2000000
  dot_S50x3_S3x16000_S50x16000_1_0_0_1_n_n_wf : DotDims.WF S50x3 S3x16000 S50x16000 [1] [0] [0] [1] [] []
  dot_S50x50_S50x16000_S50x16000_1_0_0_1_n_n_wf : DotDims.WF S50x50 S50x16000 S50x16000 [1] [0] [0] [1] [] []
  dot_S3x50_S50x16000_S3x16000_1_0_0_1_n_n_wf : DotDims.WF S3x50 S50x16000 S3x16000 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x16000.size a ≤ S1x2000000.size a
  hwx0_0 : ∀ i : grid0.Coords, EltTy.bits .f32 = 32 ∨ (Rect.block (s := S1x2000000) S1x16000.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x16000.size a ≤ S1x2000000.size a
  hwx0_1 : ∀ i : grid0.Coords, EltTy.bits .f32 = 32 ∨ (Rect.block (s := S1x2000000) S1x16000.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x16000.size a ≤ S1x2000000.size a
  hwx0_2 : ∀ i : grid0.Coords, EltTy.bits .f32 = 32 ∨ (Rect.block (s := S1x2000000) S1x16000.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S50x3.size a ≤ S50x3.size a
  hwx0_3 : ∀ i : grid0.Coords, EltTy.bits .bf16 = 32 ∨ (Rect.block (s := S50x3) S50x3.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S50x1.size a ≤ S50x1.size a
  hwx0_4 : ∀ i : grid0.Coords, EltTy.bits .f32 = 32 ∨ (Rect.block (s := S50x1) S50x1.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S7x50x50.size a ≤ S7x50x50.size a
  hwx0_5 : ∀ i : grid0.Coords, EltTy.bits .bf16 = 32 ∨ (Rect.block (s := S7x50x50) S7x50x50.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S7x50x1.size a ≤ S7x50x1.size a
  hwx0_6 : ∀ i : grid0.Coords, EltTy.bits .f32 = 32 ∨ (Rect.block (s := S7x50x1) S7x50x1.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S3x50.size a ≤ S3x50.size a
  hwx0_7 : ∀ i : grid0.Coords, EltTy.bits .bf16 = 32 ∨ (Rect.block (s := S3x50) S3x50.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S3x1.size a ≤ S3x1.size a
  hwx0_8 : ∀ i : grid0.Coords, EltTy.bits .f32 = 32 ∨ (Rect.block (s := S3x1) S3x1.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S3x16000.size a ≤ S3x2000000.size a
  hwx0_9 : ∀ i : grid0.Coords, EltTy.bits .f32 = 32 ∨ (Rect.block (s := S3x2000000) S3x16000.size (cc0_transform_9 i) (hinb0_9 i)).WholeWords (EltTy.packing .f32)

variable [Facts₀]

def dot_S50x3_S3x16000_S50x16000_1_0_0_1_n_n : DotDims S50x3 S3x16000 S50x16000 where
  lhsContracting := [1]
  rhsContracting := [0]
  lhsNonContracting := [0]
  rhsNonContracting := [1]
  lhsBatch := []
  rhsBatch := []
  wf := dot_S50x3_S3x16000_S50x16000_1_0_0_1_n_n_wf
def dot_S50x50_S50x16000_S50x16000_1_0_0_1_n_n : DotDims S50x50 S50x16000 S50x16000 where
  lhsContracting := [1]
  rhsContracting := [0]
  lhsNonContracting := [0]
  rhsNonContracting := [1]
  lhsBatch := []
  rhsBatch := []
  wf := dot_S50x50_S50x16000_S50x16000_1_0_0_1_n_n_wf
def dot_S3x50_S50x16000_S3x16000_1_0_0_1_n_n : DotDims S3x50 S50x16000 S3x16000 where
  lhsContracting := [1]
  rhsContracting := [0]
  lhsNonContracting := [0]
  rhsNonContracting := [1]
  lhsBatch := []
  rhsBatch := []
  wf := dot_S3x50_S50x16000_S3x16000_1_0_0_1_n_n_wf

abbrev win0_0 : Pipeline.Window sig grid0 :=
  Pipeline.Window.ofSpec (Memref.whole main_v0) S1x16000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x16000.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x16000.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4) S50x3.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S50x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v7) S7x50x50.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v8) S7x50x1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v10) S3x50.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v11) S3x1.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v12) S3x16000.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S2000000x1 : Shape := ⟨2, ![2000000, 1]⟩
abbrev S3x50 : Shape := ⟨2, ![3, 50]⟩
abbrev S50 : Shape := ⟨1, ![50]⟩
abbrev S7x50x50 : Shape := ⟨3, ![7, 50, 50]⟩
abbrev S7x50 : Shape := ⟨2, ![7, 50]⟩
abbrev S50x3 : Shape := ⟨2, ![50, 3]⟩
abbrev S3 : Shape := ⟨1, ![3]⟩
abbrev S2000000x3 : Shape := ⟨2, ![2000000, 3]⟩
abbrev S2000000x50 : Shape := ⟨2, ![2000000, 50]⟩
abbrev S1x50 : Shape := ⟨2, ![1, 50]⟩
abbrev S1x50x50 : Shape := ⟨3, ![1, 50, 50]⟩
abbrev S50x50 : Shape := ⟨2, ![50, 50]⟩
abbrev S1x3 : Shape := ⟨2, ![1, 3]⟩

abbrev nBuf : Space → Nat
  | .hbm => 85
  | .vmem => 0
  | .smem => 0
  | _ => 0

abbrev bufTy : (tb : Table) → Fin (tcTables nBuf tb) → BufTy
  | .hbm, ⟨0, _⟩ => ⟨S2000000x1, .f32⟩
  | .hbm, ⟨1, _⟩ => ⟨S2000000x1, .f32⟩
  | .hbm, ⟨2, _⟩ => ⟨S2000000x1, .f32⟩
  | .hbm, ⟨3, _⟩ => ⟨S3x50, .f32⟩
  | .hbm, ⟨4, _⟩ => ⟨S50, .f32⟩
  | .hbm, ⟨5, _⟩ => ⟨S7x50x50, .f32⟩
  | .hbm, ⟨6, _⟩ => ⟨S7x50, .f32⟩
  | .hbm, ⟨7, _⟩ => ⟨S50x3, .f32⟩
  | .hbm, ⟨8, _⟩ => ⟨S3, .f32⟩
  | .hbm, ⟨9, _⟩ => ⟨S2000000x3, .f32⟩
  | .hbm, ⟨10, _⟩ => ⟨S2000000x50, .f32⟩
  | .hbm, ⟨11, _⟩ => ⟨S1x50, .f32⟩
  | .hbm, ⟨12, _⟩ => ⟨S2000000x50, .f32⟩
  | .hbm, ⟨13, _⟩ => ⟨S2000000x50, .f32⟩
  | .hbm, ⟨14, _⟩ => ⟨S2000000x50, .f32⟩
  | .hbm, ⟨15, _⟩ => ⟨S1x50x50, .f32⟩
  | .hbm, ⟨16, _⟩ => ⟨S50x50, .f32⟩
  | .hbm, ⟨17, _⟩ => ⟨S2000000x50, .f32⟩
  | .hbm, ⟨18, _⟩ => ⟨S1x50, .f32⟩
  | .hbm, ⟨19, _⟩ => ⟨S50, .f32⟩
  | .hbm, ⟨20, _⟩ => ⟨S1x50, .f32⟩
  | .hbm, ⟨21, _⟩ => ⟨S2000000x50, .f32⟩
  | .hbm, ⟨22, _⟩ => ⟨S2000000x50, .f32⟩
  | .hbm, ⟨23, _⟩ => ⟨S2000000x50, .f32⟩
  | .hbm, ⟨24, _⟩ => ⟨S1x50x50, .f32⟩
  | .hbm, ⟨25, _⟩ => ⟨S50x50, .f32⟩
  | .hbm, ⟨26, _⟩ => ⟨S2000000x50, .f32⟩
  | .hbm, ⟨27, _⟩ => ⟨S1x50, .f32⟩
  | .hbm, ⟨28, _⟩ => ⟨S50, .f32⟩
  | .hbm, ⟨29, _⟩ => ⟨S1x50, .f32⟩
  | .hbm, ⟨30, _⟩ => ⟨S2000000x50, .f32⟩
  | .hbm, ⟨31, _⟩ => ⟨S2000000x50, .f32⟩
  | .hbm, ⟨32, _⟩ => ⟨S2000000x50, .f32⟩
  | .hbm, ⟨33, _⟩ => ⟨S1x50x50, .f32⟩
  | .hbm, ⟨34, _⟩ => ⟨S50x50, .f32⟩
  | .hbm, ⟨35, _⟩ => ⟨S2000000x50, .f32⟩
  | .hbm, ⟨36, _⟩ => ⟨S1x50, .f32⟩
  | .hbm, ⟨37, _⟩ => ⟨S50, .f32⟩
  | .hbm, ⟨38, _⟩ => ⟨S1x50, .f32⟩
  | .hbm, ⟨39, _⟩ => ⟨S2000000x50, .f32⟩
  | .hbm, ⟨40, _⟩ => ⟨S2000000x50, .f32⟩
  | .hbm, ⟨41, _⟩ => ⟨S2000000x50, .f32⟩
  | .hbm, ⟨42, _⟩ => ⟨S1x50x50, .f32⟩
  | .hbm, ⟨43, _⟩ => ⟨S50x50, .f32⟩
  | .hbm, ⟨44, _⟩ => ⟨S2000000x50, .f32⟩
  | .hbm, ⟨45, _⟩ => ⟨S1x50, .f32⟩
  | .hbm, ⟨46, _⟩ => ⟨S50, .f32⟩
  | .hbm, ⟨47, _⟩ => ⟨S1x50, .f32⟩
  | .hbm, ⟨48, _⟩ => ⟨S2000000x50, .f32⟩
  | .hbm, ⟨49, _⟩ => ⟨S2000000x50, .f32⟩
  | .hbm, ⟨50, _⟩ => ⟨S2000000x50, .f32⟩
  | .hbm, ⟨51, _⟩ => ⟨S1x50x50, .f32⟩
  | .hbm, ⟨52, _⟩ => ⟨S50x50, .f32⟩
  | .hbm, ⟨53, _⟩ => ⟨S2000000x50, .f32⟩
  | .hbm, ⟨54, _⟩ => ⟨S1x50, .f32⟩
  | .hbm, ⟨55, _⟩ => ⟨S50, .f32⟩
  | .hbm, ⟨56, _⟩ => ⟨S1x50, .f32⟩
  | .hbm, ⟨57, _⟩ => ⟨S2000000x50, .f32⟩
  | .hbm, ⟨58, _⟩ => ⟨S2000000x50, .f32⟩
  | .hbm, ⟨59, _⟩ => ⟨S2000000x50, .f32⟩
  | .hbm, ⟨60, _⟩ => ⟨S1x50x50, .f32⟩
  | .hbm, ⟨61, _⟩ => ⟨S50x50, .f32⟩
  | .hbm, ⟨62, _⟩ => ⟨S2000000x50, .f32⟩
  | .hbm, ⟨63, _⟩ => ⟨S1x50, .f32⟩
  | .hbm, ⟨64, _⟩ => ⟨S50, .f32⟩
  | .hbm, ⟨65, _⟩ => ⟨S1x50, .f32⟩
  | .hbm, ⟨66, _⟩ => ⟨S2000000x50, .f32⟩
  | .hbm, ⟨67, _⟩ => ⟨S2000000x50, .f32⟩
  | .hbm, ⟨68, _⟩ => ⟨S2000000x50, .f32⟩
  | .hbm, ⟨69, _⟩ => ⟨S1x50x50, .f32⟩
  | .hbm, ⟨70, _⟩ => ⟨S50x50, .f32⟩
  | .hbm, ⟨71, _⟩ => ⟨S2000000x50, .f32⟩
  | .hbm, ⟨72, _⟩ => ⟨S1x50, .f32⟩
  | .hbm, ⟨73, _⟩ => ⟨S50, .f32⟩
  | .hbm, ⟨74, _⟩ => ⟨S1x50, .f32⟩
  | .hbm, ⟨75, _⟩ => ⟨S2000000x50, .f32⟩
  | .hbm, ⟨76, _⟩ => ⟨S2000000x50, .f32⟩
  | .hbm, ⟨77, _⟩ => ⟨S2000000x50, .f32⟩
  | .hbm, ⟨78, _⟩ => ⟨S2000000x3, .f32⟩
  | .hbm, ⟨79, _⟩ => ⟨S1x3, .f32⟩
  | .hbm, ⟨80, _⟩ => ⟨S2000000x3, .f32⟩
  | .hbm, ⟨81, _⟩ => ⟨S2000000x3, .f32⟩
  | .hbm, ⟨82, _⟩ => ⟨S2000000x1, .f32⟩
  | .hbm, ⟨83, _⟩ => ⟨S2000000x1, .f32⟩
  | .hbm, ⟨84, _⟩ => ⟨S2000000x1, .f32⟩
  | _, _ => ⟨S2000000x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_v61 : Ref sig .tc := ⟨.hbm, 70, rfl⟩
abbrev main_v62 : Ref sig .tc := ⟨.hbm, 71, rfl⟩
abbrev main_v63 : Ref sig .tc := ⟨.hbm, 72, rfl⟩
abbrev main_v64 : Ref sig .tc := ⟨.hbm, 73, rfl⟩
abbrev main_v65 : Ref sig .tc := ⟨.hbm, 74, rfl⟩
abbrev main_v66 : Ref sig .tc := ⟨.hbm, 75, rfl⟩
abbrev main_v67 : Ref sig .tc := ⟨.hbm, 76, rfl⟩
abbrev main_v68 : Ref sig .tc := ⟨.hbm, 77, rfl⟩
abbrev main_v69 : Ref sig .tc := ⟨.hbm, 78, rfl⟩
abbrev main_v70 : Ref sig .tc := ⟨.hbm, 79, rfl⟩
abbrev main_v71 : Ref sig .tc := ⟨.hbm, 80, rfl⟩
abbrev main_v72 : Ref sig .tc := ⟨.hbm, 81, rfl⟩
abbrev main_v73 : Ref sig .tc := ⟨.hbm, 82, rfl⟩
abbrev main_v74 : Ref sig .tc := ⟨.hbm, 83, rfl⟩
abbrev main_v75 : Ref sig .tc := ⟨.hbm, 84, rfl⟩

abbrev nD : Nat := 1
abbrev τ : Topo := Topo.v7x

variable {F : FTy → Type} [FloatOps F]

class Facts₀ : Prop where
  concatenates_S2000000x1_S2000000x1_S2000000x1_S2000000x3_d1 : Shape.Concatenates [S2000000x1, S2000000x1, S2000000x1] S2000000x3 1
  bcast_S50_S1x50_1 : S50.BroadcastsInDim S1x50 (![1] : Fin 1 → Fin S1x50.rank)
  bcast_S1x50_S2000000x50_0_1 : S1x50.BroadcastsInDim S2000000x50 (![0, 1] : Fin 2 → Fin S2000000x50.rank)
  slices_S7x50x50_S1x50x50_0_0_0 : S7x50x50.Slices ![0, 0, 0] S1x50x50
  shapeCasts_S1x50x50_S50x50 : S1x50x50.ShapeCasts S50x50
  slices_S7x50_S1x50_0_0 : S7x50.Slices ![0, 0] S1x50
  shapeCasts_S1x50_S50 : S1x50.ShapeCasts S50
  slices_S7x50x50_S1x50x50_1_0_0 : S7x50x50.Slices ![1, 0, 0] S1x50x50
  slices_S7x50_S1x50_1_0 : S7x50.Slices ![1, 0] S1x50
  slices_S7x50x50_S1x50x50_2_0_0 : S7x50x50.Slices ![2, 0, 0] S1x50x50
  slices_S7x50_S1x50_2_0 : S7x50.Slices ![2, 0] S1x50
  slices_S7x50x50_S1x50x50_3_0_0 : S7x50x50.Slices ![3, 0, 0] S1x50x50
  slices_S7x50_S1x50_3_0 : S7x50.Slices ![3, 0] S1x50
  slices_S7x50x50_S1x50x50_4_0_0 : S7x50x50.Slices ![4, 0, 0] S1x50x50
  slices_S7x50_S1x50_4_0 : S7x50.Slices ![4, 0] S1x50
  slices_S7x50x50_S1x50x50_5_0_0 : S7x50x50.Slices ![5, 0, 0] S1x50x50
  slices_S7x50_S1x50_5_0 : S7x50.Slices ![5, 0] S1x50
  slices_S7x50x50_S1x50x50_6_0_0 : S7x50x50.Slices ![6, 0, 0] S1x50x50
  slices_S7x50_S1x50_6_0 : S7x50.Slices ![6, 0] S1x50
  bcast_S3_S1x3_1 : S3.BroadcastsInDim S1x3 (![1] : Fin 1 → Fin S1x3.rank)
  bcast_S1x3_S2000000x3_0_1 : S1x3.BroadcastsInDim S2000000x3 (![0, 1] : Fin 2 → Fin S2000000x3.rank)
  slices_S2000000x3_S2000000x1_0_0 : S2000000x3.Slices ![0, 0] S2000000x1
  slices_S2000000x3_S2000000x1_0_1 : S2000000x3.Slices ![0, 1] S2000000x1
  slices_S2000000x3_S2000000x1_0_2 : S2000000x3.Slices ![0, 2] S2000000x1
  dot_S2000000x3_S3x50_S2000000x50_1_0_0_1_n_n_wf : DotDims.WF S2000000x3 S3x50 S2000000x50 [1] [0] [0] [1] [] []
  dot_S2000000x50_S50x50_S2000000x50_1_0_0_1_n_n_wf : DotDims.WF S2000000x50 S50x50 S2000000x50 [1] [0] [0] [1] [] []
  dot_S2000000x50_S50x3_S2000000x3_1_0_0_1_n_n_wf : DotDims.WF S2000000x50 S50x3 S2000000x3 [1] [0] [0] [1] [] []

variable [Facts₀]

def dot_S2000000x3_S3x50_S2000000x50_1_0_0_1_n_n : DotDims S2000000x3 S3x50 S2000000x50 where
  lhsContracting := [1]
  rhsContracting := [0]
  lhsNonContracting := [0]
  rhsNonContracting := [1]
  lhsBatch := []
  rhsBatch := []
  wf := dot_S2000000x3_S3x50_S2000000x50_1_0_0_1_n_n_wf
def dot_S2000000x50_S50x50_S2000000x50_1_0_0_1_n_n : DotDims S2000000x50 S50x50 S2000000x50 where
  lhsContracting := [1]
  rhsContracting := [0]
  lhsNonContracting := [0]
  rhsNonContracting := [1]
  lhsBatch := []
  rhsBatch := []
  wf := dot_S2000000x50_S50x50_S2000000x50_1_0_0_1_n_n_wf
def dot_S2000000x50_S50x3_S2000000x3_1_0_0_1_n_n : DotDims S2000000x50 S50x3 S2000000x3 where
  lhsContracting := [1]
  rhsContracting := [0]
  lhsNonContracting := [0]
  rhsNonContracting := [1]
  lhsBatch := []
  rhsBatch := []
  wf := dot_S2000000x50_S50x3_S2000000x3_1_0_0_1_n_n_wf

class Facts : Prop extends Facts₀ where

variable [Facts]
-- ==== Proof.Spec.lean ====
/-
  The network both programs compute, read one input row at a time over the extended reals.

  A row of three numbers goes through an affine map to fifty numbers and the hyperbolic tangent, then through seven
  more affine maps of fifty numbers to fifty numbers, each followed by the hyperbolic tangent, then through an affine map to
  three numbers. An affine map sends a row h to h · W + b: entry j is the sum over k of h k times W k j, plus b j.
  The weights are taken as plain functions of their indices, so that a program which keeps a weight matrix transposed,
  or a bias as a column, instantiates the same definition at the function that reads its own layout.
-/
import Idealize.ShloMosaic.PureOps.Ideal
import Idealize.ShloMosaic.Lib.ValueIdx

noncomputable section

namespace Cert.Mlp

open Idealize.ShloMosaic
open scoped BigOperators

/-- One affine map on a row: entry j of h · W + b. -/
def dense {K N : ℕ} (h : Fin K → EReal) (W : Fin K → Fin N → EReal) (b : Fin N → EReal) : Fin N → EReal :=
  fun j => (∑ k : Fin K, h k * W k j) + b j

/-- The hyperbolic tangent of every entry of a row. -/
def act {N : ℕ} (v : Fin N → EReal) : Fin N → EReal := fun j => Ideal.tanh (v j)

/-- The same affine map with each product written weight first: the two orders agree, factor by factor. -/
theorem dense_comm {K N : ℕ} (h : Fin K → EReal) (W : Fin K → Fin N → EReal) (b : Fin N → EReal) (j : Fin N) :
    (∑ k : Fin K, W k j * h k) + b j = dense h W b j := by
  unfold dense
  exact congrArg (· + b j) (Finset.sum_congr rfl fun k _ => mul_comm _ _)

section
variable (Win : Fin 3 → Fin 50 → EReal) (bin : Fin 50 → EReal)
  (Wmid : Fin 7 → Fin 50 → Fin 50 → EReal) (bmid : Fin 7 → Fin 50 → EReal)
  (Wout : Fin 50 → Fin 3 → EReal) (bout : Fin 3 → EReal)

/-- The first hidden row: the input row through the first affine map and the hyperbolic tangent. -/
def first (u : Fin 3 → EReal) : Fin 50 → EReal := act (dense u Win bin)

/-- Hidden layer i: a hidden row through the i-th of the seven square affine maps and the hyperbolic tangent. -/
def mid (i : Fin 7) (h : Fin 50 → EReal) : Fin 50 → EReal := act (dense h (Wmid i) (bmid i))

/-- The last hidden row: the first hidden row through the seven hidden layers in order. -/
def hidden (u : Fin 3 → EReal) : Fin 50 → EReal :=
  mid Wmid bmid 6 (mid Wmid bmid 5 (mid Wmid bmid 4 (mid Wmid bmid 3 (mid Wmid bmid 2 (mid Wmid bmid 1
    (mid Wmid bmid 0 (first Win bin u)))))))

/-- The network's three outputs for one input row. -/
def net (u : Fin 3 → EReal) : Fin 3 → EReal := dense (hidden Win bin Wmid bmid u) Wout bout
end

/-! ## The network on the programs' argument arrays -/

section
open Idealize.ShloMosaic.ValueIdx

variable (x y z : FVec Ideal (⟨2, ![2000000, 1]⟩ : Shape) .f32) (Win : FVec Ideal (⟨2, ![3, 50]⟩ : Shape) .f32)
  (bin : FVec Ideal (⟨1, ![50]⟩ : Shape) .f32) (Wmid : FVec Ideal (⟨3, ![7, 50, 50]⟩ : Shape) .f32)
  (bmid : FVec Ideal (⟨2, ![7, 50]⟩ : Shape) .f32) (Wout : FVec Ideal (⟨2, ![50, 3]⟩ : Shape) .f32)
  (bout : FVec Ideal (⟨1, ![3]⟩ : Shape) .f32)

/-- Row n of the three input columns, as a row of three numbers. -/
def inRow (n : Fin 2000000) : Fin 3 → EReal := ![x (ix2 n (0 : Fin 1)), y (ix2 n (0 : Fin 1)), z (ix2 n (0 : Fin 1))]

/-- The network's three outputs at input row n, the weights read off the argument arrays: the first map's matrix is
    [3, 50] with bias [50], hidden map i is slice i of the [7, 50, 50] stack with bias row i of [7, 50], the last map's
    matrix is [50, 3] with bias [3]. -/
def netOf (n : Fin 2000000) : Fin 3 → EReal :=
  net (fun k j => Win (ix2 k j)) (fun j => bin (ix1 j)) (fun i k j => Wmid (ix3 i k j)) (fun i j => bmid (ix2 i j))
    (fun k c => Wout (ix2 k c)) (fun c => bout (ix1 c)) (inRow x y z n)

/-- Output c of the network as the [2000000, 1] array the programs return: entry (n, 0) is output c at row n. -/
def outArr (c : Fin 3) : FVec Ideal (⟨2, ![2000000, 1]⟩ : Shape) .f32 :=
  fun i => netOf x y z Win bin Wmid bmid Wout bout (i 0) c

theorem outArr_apply (c : Fin 3) (n : Fin 2000000) (u : Fin 1) :
    outArr x y z Win bin Wmid bmid Wout bout c (ix2 n u) = netOf x y z Win bin Wmid bmid Wout bout n c := rfl
end

end Cert.Mlp

end
-- ==== Proof.RefNet.lean ====
/-
  The reference's run read layer by layer: each of its three results is the network of Spec.lean at the input row.

  The reference joins the three input columns into rows of three, and applies the affine maps in the order h · W + b with
  the weights in the layout the arguments come in, so each of its layers is the specification's layer at the same
  weight functions, entry by entry; its three results are the three columns of the last affine map's [2000000, 3] array.
-/
import proofs.«156876_j74036646248987_1_alg».proof.Proof.Gen.ReferenceIdeal.Read
import proofs.«156876_j74036646248987_1_alg».proof.Proof.Spec

noncomputable section

namespace Cert.ReferenceIdeal.RefNet

open Cert.ReferenceIdeal Cert.ReferenceIdeal.Read Idealize.ShloMosaic Idealize.ShloMosaic.ValueIdx
open scoped BigOperators

variable (x y z : (⟨S2000000x1, .f32⟩ : BufTy).Contents (Elt Ideal)) (Win : (⟨S3x50, .f32⟩ : BufTy).Contents (Elt Ideal))
  (bin : (⟨S50, .f32⟩ : BufTy).Contents (Elt Ideal)) (Wmid : (⟨S7x50x50, .f32⟩ : BufTy).Contents (Elt Ideal))
  (bmid : (⟨S7x50, .f32⟩ : BufTy).Contents (Elt Ideal)) (Wout : (⟨S50x3, .f32⟩ : BufTy).Contents (Elt Ideal))
  (bout : (⟨S3, .f32⟩ : BufTy).Contents (Elt Ideal))

/-! ## Indices and index arithmetic -/

/-- A rank-2 index is named by its two coordinates. -/
theorem ix2_of {n0 n1 : Nat} (i : (⟨2, ![n0, n1]⟩ : Shape).Idx) (a : Fin n0) (b : Fin n1) (h0 : i 0 = a) (h1 : i 1 = b) :
    i = ix2 a b := by
  subst h0 h1
  exact eq_ix2 i

/-- Entry (k, j) of a [50, 50] matrix sits at row-major position 50 k + j, whose quotient by 50 is k. -/
theorem quot_row (k j : Fin 50) : (k.val * 50 + j.val) / 50 % 50 = k.val := by
  have hk := k.isLt; have hj := j.isLt; omega

/-- Entry (k, j) of a [50, 50] matrix sits at row-major position 50 k + j, whose remainder by 50 is j. -/
theorem rem_row (k j : Fin 50) : (k.val * 50 + j.val) % 50 = j.val := by
  have hk := k.isLt; have hj := j.isLt; omega

/-! ## The joined input row

The three [2000000, 1] columns joined along axis 1: column 0 of the joined array is x, column 1 is y, column 2 is z. -/

theorem joined0 (n : Fin 2000000) : val_main_v0 (F := Ideal) x y z (ix2 n (0 : Fin 3)) = x (ix2 n (0 : Fin 1)) := by
  unfold val_main_v0
  exact concatenate_apply_piece (1 : Fin S2000000x3.rank) _ _ (ix2 n (0 : Fin 3)) 0 (by show (0 : Nat) < 3; decide)
    S2000000x1 x rfl rfl 0 rfl (ix2 n (0 : Fin 1))
    (fun b hb => by match b with | ⟨0, _⟩ => rfl | ⟨1, _⟩ => exact absurd rfl hb) rfl

theorem joined1 (n : Fin 2000000) : val_main_v0 (F := Ideal) x y z (ix2 n (1 : Fin 3)) = y (ix2 n (0 : Fin 1)) := by
  unfold val_main_v0
  exact concatenate_apply_piece (1 : Fin S2000000x3.rank) _ _ (ix2 n (1 : Fin 3)) 1 (by show (1 : Nat) < 3; decide)
    S2000000x1 y rfl rfl 1 rfl (ix2 n (0 : Fin 1))
    (fun b hb => by match b with | ⟨0, _⟩ => rfl | ⟨1, _⟩ => exact absurd rfl hb) rfl

theorem joined2 (n : Fin 2000000) : val_main_v0 (F := Ideal) x y z (ix2 n (2 : Fin 3)) = z (ix2 n (0 : Fin 1)) := by
  unfold val_main_v0
  exact concatenate_apply_piece (1 : Fin S2000000x3.rank) _ _ (ix2 n (2 : Fin 3)) 2 (by show (2 : Nat) < 3; decide)
    S2000000x1 z rfl rfl 2 rfl (ix2 n (0 : Fin 1))
    (fun b hb => by match b with | ⟨0, _⟩ => rfl | ⟨1, _⟩ => exact absurd rfl hb) rfl

/-- Row n of the joined array is the specification's input row n. -/
theorem joined (n : Fin 2000000) (k : Fin 3) :
    val_main_v0 (F := Ideal) x y z (ix2 n k) = Cert.Mlp.inRow x y z n k := by
  match k with
  | ⟨0, _⟩ => exact joined0 x y z n
  | ⟨1, _⟩ => exact joined1 x y z n
  | ⟨2, _⟩ => exact joined2 x y z n

/-! ## The first layer -/

/-- The first layer's result at (n, j) is entry j of the specification's first hidden row at input row n. -/
theorem first_layer (n : Fin 2000000) (j : Fin 50) :
    val_main_v5 (F := Ideal) x y z Win bin (ix2 n j)
      = Cert.Mlp.first (fun k j => Win (ix2 k j)) (fun j => bin (ix1 j)) (Cert.Mlp.inRow x y z n) j := by
  have hl : ∀ k : Fin 3, lidx_main_v1 (ix2 n j) k = ix2 n k := fun k => ix2_of _ n k rfl rfl
  have hr : ∀ k : Fin 3, ridx_main_v1 (ix2 n j) k = ix2 k j := fun k => ix2_of _ k j rfl rfl
  have hb : idx_main_v2 (idx_main_v3 (ix2 n j)) = ix1 j := (eq_ix1 _).trans rfl
  rw [val_main_v5_apply, val_main_v4_apply, val_main_v1_apply, val_main_v3_apply, val_main_v2_apply, hb]
  simp only [hl, hr, joined]
  rfl

/-! ## The seven hidden layers

Hidden layer i reads slice i of the [7, 50, 50] weight stack as a [50, 50] matrix, and row i of the [7, 50] bias table
as a row repeated down the 2000000 rows; its result at (n, j) is the hyperbolic tangent of the sum over k of the
previous layer's (n, k) times the matrix's (k, j), plus the bias's j. -/

/-- Layer 0's matrix at (k, j) is entry (0, k, j) of the weight stack. -/
theorem weights0 (k j : Fin 50) : val_main_v7 (F := Ideal) Wmid (ix2 k j) = Wmid (ix3 (0 : Fin 7) k j) := by
  rw [val_main_v7_apply, val_main_v6_apply]
  exact congrArg Wmid (funext fun a => Fin.ext (by
    match a with
    | ⟨0, _⟩ => rfl
    | ⟨1, _⟩ => exact quot_row k j
    | ⟨2, _⟩ => exact rem_row k j))

/-- Layer 0's bias at (n, j) is entry (0, j) of the bias table. -/
theorem bias0 (n : Fin 2000000) (j : Fin 50) : val_main_v12 (F := Ideal) bmid (ix2 n j) = bmid (ix2 (0 : Fin 7) j) := by
  rw [val_main_v12_apply, val_main_v11_apply, val_main_v10_apply, val_main_v9_apply]
  exact congrArg bmid (funext fun a => Fin.ext (by
    match a with
    | ⟨0, _⟩ => rfl
    | ⟨1, _⟩ => exact Nat.mod_eq_of_lt j.isLt))

/-- If row n of the first layer's result is h, row n of hidden layer 0's result is the specification's layer 0 of h. -/
theorem layer0 (n : Fin 2000000) (j : Fin 50) (h : Fin 50 → EReal)
    (hp : ∀ k : Fin 50, val_main_v5 (F := Ideal) x y z Win bin (ix2 n k) = h k) :
    val_main_v14 (F := Ideal) x y z Win bin Wmid bmid (ix2 n j)
      = Cert.Mlp.mid (fun i k j => Wmid (ix3 i k j)) (fun i j => bmid (ix2 i j)) 0 h j := by
  have hl : ∀ k : Fin 50, lidx_main_v8 (ix2 n j) k = ix2 n k := fun k => ix2_of _ n k rfl rfl
  have hr : ∀ k : Fin 50, ridx_main_v8 (ix2 n j) k = ix2 k j := fun k => ix2_of _ k j rfl rfl
  rw [val_main_v14_apply, val_main_v13_apply, val_main_v8_apply, bias0]
  simp only [hl, hr, hp, weights0]
  rfl

/-- Layer 1's matrix at (k, j) is entry (1, k, j) of the weight stack. -/
theorem weights1 (k j : Fin 50) : val_main_v16 (F := Ideal) Wmid (ix2 k j) = Wmid (ix3 (1 : Fin 7) k j) := by
  rw [val_main_v16_apply, val_main_v15_apply]
  exact congrArg Wmid (funext fun a => Fin.ext (by
    match a with
    | ⟨0, _⟩ => rfl
    | ⟨1, _⟩ => exact quot_row k j
    | ⟨2, _⟩ => exact rem_row k j))

/-- Layer 1's bias at (n, j) is entry (1, j) of the bias table. -/
theorem bias1 (n : Fin 2000000) (j : Fin 50) : val_main_v21 (F := Ideal) bmid (ix2 n j) = bmid (ix2 (1 : Fin 7) j) := by
  rw [val_main_v21_apply, val_main_v20_apply, val_main_v19_apply, val_main_v18_apply]
  exact congrArg bmid (funext fun a => Fin.ext (by
    match a with
    | ⟨0, _⟩ => rfl
    | ⟨1, _⟩ => exact Nat.mod_eq_of_lt j.isLt))

/-- If row n of hidden layer 0's result is h, row n of hidden layer 1's result is the specification's layer 1 of h. -/
theorem layer1 (n : Fin 2000000) (j : Fin 50) (h : Fin 50 → EReal)
    (hp : ∀ k : Fin 50, val_main_v14 (F := Ideal) x y z Win bin Wmid bmid (ix2 n k) = h k) :
    val_main_v23 (F := Ideal) x y z Win bin Wmid bmid (ix2 n j)
      = Cert.Mlp.mid (fun i k j => Wmid (ix3 i k j)) (fun i j => bmid (ix2 i j)) 1 h j := by
  have hl : ∀ k : Fin 50, lidx_main_v17 (ix2 n j) k = ix2 n k := fun k => ix2_of _ n k rfl rfl
  have hr : ∀ k : Fin 50, ridx_main_v17 (ix2 n j) k = ix2 k j := fun k => ix2_of _ k j rfl rfl
  rw [val_main_v23_apply, val_main_v22_apply, val_main_v17_apply, bias1]
  simp only [hl, hr, hp, weights1]
  rfl

/-- Layer 2's matrix at (k, j) is entry (2, k, j) of the weight stack. -/
theorem weights2 (k j : Fin 50) : val_main_v25 (F := Ideal) Wmid (ix2 k j) = Wmid (ix3 (2 : Fin 7) k j) := by
  rw [val_main_v25_apply, val_main_v24_apply]
  exact congrArg Wmid (funext fun a => Fin.ext (by
    match a with
    | ⟨0, _⟩ => rfl
    | ⟨1, _⟩ => exact quot_row k j
    | ⟨2, _⟩ => exact rem_row k j))

/-- Layer 2's bias at (n, j) is entry (2, j) of the bias table. -/
theorem bias2 (n : Fin 2000000) (j : Fin 50) : val_main_v30 (F := Ideal) bmid (ix2 n j) = bmid (ix2 (2 : Fin 7) j) := by
  rw [val_main_v30_apply, val_main_v29_apply, val_main_v28_apply, val_main_v27_apply]
  exact congrArg bmid (funext fun a => Fin.ext (by
    match a with
    | ⟨0, _⟩ => rfl
    | ⟨1, _⟩ => exact Nat.mod_eq_of_lt j.isLt))

/-- If row n of hidden layer 1's result is h, row n of hidden layer 2's result is the specification's layer 2 of h. -/
theorem layer2 (n : Fin 2000000) (j : Fin 50) (h : Fin 50 → EReal)
    (hp : ∀ k : Fin 50, val_main_v23 (F := Ideal) x y z Win bin Wmid bmid (ix2 n k) = h k) :
    val_main_v32 (F := Ideal) x y z Win bin Wmid bmid (ix2 n j)
      = Cert.Mlp.mid (fun i k j => Wmid (ix3 i k j)) (fun i j => bmid (ix2 i j)) 2 h j := by
  have hl : ∀ k : Fin 50, lidx_main_v26 (ix2 n j) k = ix2 n k := fun k => ix2_of _ n k rfl rfl
  have hr : ∀ k : Fin 50, ridx_main_v26 (ix2 n j) k = ix2 k j := fun k => ix2_of _ k j rfl rfl
  rw [val_main_v32_apply, val_main_v31_apply, val_main_v26_apply, bias2]
  simp only [hl, hr, hp, weights2]
  rfl

/-- Layer 3's matrix at (k, j) is entry (3, k, j) of the weight stack. -/
theorem weights3 (k j : Fin 50) : val_main_v34 (F := Ideal) Wmid (ix2 k j) = Wmid (ix3 (3 : Fin 7) k j) := by
  rw [val_main_v34_apply, val_main_v33_apply]
  exact congrArg Wmid (funext fun a => Fin.ext (by
    match a with
    | ⟨0, _⟩ => rfl
    | ⟨1, _⟩ => exact quot_row k j
    | ⟨2, _⟩ => exact rem_row k j))

/-- Layer 3's bias at (n, j) is entry (3, j) of the bias table. -/
theorem bias3 (n : Fin 2000000) (j : Fin 50) : val_main_v39 (F := Ideal) bmid (ix2 n j) = bmid (ix2 (3 : Fin 7) j) := by
  rw [val_main_v39_apply, val_main_v38_apply, val_main_v37_apply, val_main_v36_apply]
  exact congrArg bmid (funext fun a => Fin.ext (by
    match a with
    | ⟨0, _⟩ => rfl
    | ⟨1, _⟩ => exact Nat.mod_eq_of_lt j.isLt))

/-- If row n of hidden layer 2's result is h, row n of hidden layer 3's result is the specification's layer 3 of h. -/
theorem layer3 (n : Fin 2000000) (j : Fin 50) (h : Fin 50 → EReal)
    (hp : ∀ k : Fin 50, val_main_v32 (F := Ideal) x y z Win bin Wmid bmid (ix2 n k) = h k) :
    val_main_v41 (F := Ideal) x y z Win bin Wmid bmid (ix2 n j)
      = Cert.Mlp.mid (fun i k j => Wmid (ix3 i k j)) (fun i j => bmid (ix2 i j)) 3 h j := by
  have hl : ∀ k : Fin 50, lidx_main_v35 (ix2 n j) k = ix2 n k := fun k => ix2_of _ n k rfl rfl
  have hr : ∀ k : Fin 50, ridx_main_v35 (ix2 n j) k = ix2 k j := fun k => ix2_of _ k j rfl rfl
  rw [val_main_v41_apply, val_main_v40_apply, val_main_v35_apply, bias3]
  simp only [hl, hr, hp, weights3]
  rfl

/-- Layer 4's matrix at (k, j) is entry (4, k, j) of the weight stack. -/
theorem weights4 (k j : Fin 50) : val_main_v43 (F := Ideal) Wmid (ix2 k j) = Wmid (ix3 (4 : Fin 7) k j) := by
  rw [val_main_v43_apply, val_main_v42_apply]
  exact congrArg Wmid (funext fun a => Fin.ext (by
    match a with
    | ⟨0, _⟩ => rfl
    | ⟨1, _⟩ => exact quot_row k j
    | ⟨2, _⟩ => exact rem_row k j))

/-- Layer 4's bias at (n, j) is entry (4, j) of the bias table. -/
theorem bias4 (n : Fin 2000000) (j : Fin 50) : val_main_v48 (F := Ideal) bmid (ix2 n j) = bmid (ix2 (4 : Fin 7) j) := by
  rw [val_main_v48_apply, val_main_v47_apply, val_main_v46_apply, val_main_v45_apply]
  exact congrArg bmid (funext fun a => Fin.ext (by
    match a with
    | ⟨0, _⟩ => rfl
    | ⟨1, _⟩ => exact Nat.mod_eq_of_lt j.isLt))

/-- If row n of hidden layer 3's result is h, row n of hidden layer 4's result is the specification's layer 4 of h. -/
theorem layer4 (n : Fin 2000000) (j : Fin 50) (h : Fin 50 → EReal)
    (hp : ∀ k : Fin 50, val_main_v41 (F := Ideal) x y z Win bin Wmid bmid (ix2 n k) = h k) :
    val_main_v50 (F := Ideal) x y z Win bin Wmid bmid (ix2 n j)
      = Cert.Mlp.mid (fun i k j => Wmid (ix3 i k j)) (fun i j => bmid (ix2 i j)) 4 h j := by
  have hl : ∀ k : Fin 50, lidx_main_v44 (ix2 n j) k = ix2 n k := fun k => ix2_of _ n k rfl rfl
  have hr : ∀ k : Fin 50, ridx_main_v44 (ix2 n j) k = ix2 k j := fun k => ix2_of _ k j rfl rfl
  rw [val_main_v50_apply, val_main_v49_apply, val_main_v44_apply, bias4]
  simp only [hl, hr, hp, weights4]
  rfl

/-- Layer 5's matrix at (k, j) is entry (5, k, j) of the weight stack. -/
theorem weights5 (k j : Fin 50) : val_main_v52 (F := Ideal) Wmid (ix2 k j) = Wmid (ix3 (5 : Fin 7) k j) := by
  rw [val_main_v52_apply, val_main_v51_apply]
  exact congrArg Wmid (funext fun a => Fin.ext (by
    match a with
    | ⟨0, _⟩ => rfl
    | ⟨1, _⟩ => exact quot_row k j
    | ⟨2, _⟩ => exact rem_row k j))

/-- Layer 5's bias at (n, j) is entry (5, j) of the bias table. -/
theorem bias5 (n : Fin 2000000) (j : Fin 50) : val_main_v57 (F := Ideal) bmid (ix2 n j) = bmid (ix2 (5 : Fin 7) j) := by
  rw [val_main_v57_apply, val_main_v56_apply, val_main_v55_apply, val_main_v54_apply]
  exact congrArg bmid (funext fun a => Fin.ext (by
    match a with
    | ⟨0, _⟩ => rfl
    | ⟨1, _⟩ => exact Nat.mod_eq_of_lt j.isLt))

/-- If row n of hidden layer 4's result is h, row n of hidden layer 5's result is the specification's layer 5 of h. -/
theorem layer5 (n : Fin 2000000) (j : Fin 50) (h : Fin 50 → EReal)
    (hp : ∀ k : Fin 50, val_main_v50 (F := Ideal) x y z Win bin Wmid bmid (ix2 n k) = h k) :
    val_main_v59 (F := Ideal) x y z Win bin Wmid bmid (ix2 n j)
      = Cert.Mlp.mid (fun i k j => Wmid (ix3 i k j)) (fun i j => bmid (ix2 i j)) 5 h j := by
  have hl : ∀ k : Fin 50, lidx_main_v53 (ix2 n j) k = ix2 n k := fun k => ix2_of _ n k rfl rfl
  have hr : ∀ k : Fin 50, ridx_main_v53 (ix2 n j) k = ix2 k j := fun k => ix2_of _ k j rfl rfl
  rw [val_main_v59_apply, val_main_v58_apply, val_main_v53_apply, bias5]
  simp only [hl, hr, hp, weights5]
  rfl

/-- Layer 6's matrix at (k, j) is entry (6, k, j) of the weight stack. -/
theorem weights6 (k j : Fin 50) : val_main_v61 (F := Ideal) Wmid (ix2 k j) = Wmid (ix3 (6 : Fin 7) k j) := by
  rw [val_main_v61_apply, val_main_v60_apply]
  exact congrArg Wmid (funext fun a => Fin.ext (by
    match a with
    | ⟨0, _⟩ => rfl
    | ⟨1, _⟩ => exact quot_row k j
    | ⟨2, _⟩ => exact rem_row k j))

/-- Layer 6's bias at (n, j) is entry (6, j) of the bias table. -/
theorem bias6 (n : Fin 2000000) (j : Fin 50) : val_main_v66 (F := Ideal) bmid (ix2 n j) = bmid (ix2 (6 : Fin 7) j) := by
  rw [val_main_v66_apply, val_main_v65_apply, val_main_v64_apply, val_main_v63_apply]
  exact congrArg bmid (funext fun a => Fin.ext (by
    match a with
    | ⟨0, _⟩ => rfl
    | ⟨1, _⟩ => exact Nat.mod_eq_of_lt j.isLt))

/-- If row n of hidden layer 5's result is h, row n of hidden layer 6's result is the specification's layer 6 of h. -/
theorem layer6 (n : Fin 2000000) (j : Fin 50) (h : Fin 50 → EReal)
    (hp : ∀ k : Fin 50, val_main_v59 (F := Ideal) x y z Win bin Wmid bmid (ix2 n k) = h k) :
    val_main_v68 (F := Ideal) x y z Win bin Wmid bmid (ix2 n j)
      = Cert.Mlp.mid (fun i k j => Wmid (ix3 i k j)) (fun i j => bmid (ix2 i j)) 6 h j := by
  have hl : ∀ k : Fin 50, lidx_main_v62 (ix2 n j) k = ix2 n k := fun k => ix2_of _ n k rfl rfl
  have hr : ∀ k : Fin 50, ridx_main_v62 (ix2 n j) k = ix2 k j := fun k => ix2_of _ k j rfl rfl
  rw [val_main_v68_apply, val_main_v67_apply, val_main_v62_apply, bias6]
  simp only [hl, hr, hp, weights6]
  rfl

/-- Row n of the last hidden layer's result is the specification's last hidden row at input row n: the seven layers in
    order, each fed the row before it. -/
theorem hidden_row (n : Fin 2000000) (j : Fin 50) :
    val_main_v68 (F := Ideal) x y z Win bin Wmid bmid (ix2 n j)
      = Cert.Mlp.hidden (fun k j => Win (ix2 k j)) (fun j => bin (ix1 j)) (fun i k j => Wmid (ix3 i k j))
          (fun i j => bmid (ix2 i j)) (Cert.Mlp.inRow x y z n) j :=
  layer6 x y z Win bin Wmid bmid n j _ fun k =>
  layer5 x y z Win bin Wmid bmid n k _ fun k =>
  layer4 x y z Win bin Wmid bmid n k _ fun k =>
  layer3 x y z Win bin Wmid bmid n k _ fun k =>
  layer2 x y z Win bin Wmid bmid n k _ fun k =>
  layer1 x y z Win bin Wmid bmid n k _ fun k =>
  layer0 x y z Win bin Wmid bmid n k _ fun k => first_layer x y z Win bin n k

/-! ## The last layer and the three results -/

/-- The last affine map's result at (n, c) is output c of the network at input row n. -/
theorem last_layer (n : Fin 2000000) (c : Fin 3) :
    val_main_v72 (F := Ideal) x y z Win bin Wmid bmid Wout bout (ix2 n c)
      = Cert.Mlp.netOf x y z Win bin Wmid bmid Wout bout n c := by
  have hl : ∀ k : Fin 50, lidx_main_v69 (ix2 n c) k = ix2 n k := fun k => ix2_of _ n k rfl rfl
  have hr : ∀ k : Fin 50, ridx_main_v69 (ix2 n c) k = ix2 k c := fun k => ix2_of _ k c rfl rfl
  have hb : idx_main_v70 (idx_main_v71 (ix2 n c)) = ix1 c := (eq_ix1 _).trans rfl
  rw [val_main_v72_apply, val_main_v69_apply, val_main_v71_apply, val_main_v70_apply, hb]
  simp only [hl, hr, hidden_row]
  rfl

/-- The reference's first result is output 0 of the network, row by row. -/
theorem out0 : val_main_v73 (F := Ideal) x y z Win bin Wmid bmid Wout bout
    = Cert.Mlp.outArr x y z Win bin Wmid bmid Wout bout 0 := by
  funext i
  obtain ⟨n, u, rfl⟩ : ∃ (n : Fin 2000000) (u : Fin 1), i = ix2 n u := ⟨i 0, i 1, eq_ix2 i⟩
  have hi : idx_main_v73 (ix2 n u) = ix2 n (0 : Fin 3) := ix2_of _ n 0 rfl (Fin.ext (Fin.val_eq_zero u))
  rw [val_main_v73_apply, hi, Cert.Mlp.outArr_apply]
  exact last_layer x y z Win bin Wmid bmid Wout bout n 0

/-- The reference's second result is output 1 of the network, row by row. -/
theorem out1 : val_main_v74 (F := Ideal) x y z Win bin Wmid bmid Wout bout
    = Cert.Mlp.outArr x y z Win bin Wmid bmid Wout bout 1 := by
  funext i
  obtain ⟨n, u, rfl⟩ : ∃ (n : Fin 2000000) (u : Fin 1), i = ix2 n u := ⟨i 0, i 1, eq_ix2 i⟩
  have hi : idx_main_v74 (ix2 n u) = ix2 n (1 : Fin 3) :=
    ix2_of _ n 1 rfl (Fin.ext (by show 1 + u.val = 1; rw [Fin.val_eq_zero u]))
  rw [val_main_v74_apply, hi, Cert.Mlp.outArr_apply]
  exact last_layer x y z Win bin Wmid bmid Wout bout n 1

/-- The reference's third result is output 2 of the network, row by row. -/
theorem out2 : val_main_v75 (F := Ideal) x y z Win bin Wmid bmid Wout bout
    = Cert.Mlp.outArr x y z Win bin Wmid bmid Wout bout 2 := by
  funext i
  obtain ⟨n, u, rfl⟩ : ∃ (n : Fin 2000000) (u : Fin 1), i = ix2 n u := ⟨i 0, i 1, eq_ix2 i⟩
  have hi : idx_main_v75 (ix2 n u) = ix2 n (2 : Fin 3) :=
    ix2_of _ n 2 rfl (Fin.ext (by show 2 + u.val = 2; rw [Fin.val_eq_zero u]))
  rw [val_main_v75_apply, hi, Cert.Mlp.outArr_apply]
  exact last_layer x y z Win bin Wmid bmid Wout bout n 2

end Cert.ReferenceIdeal.RefNet

end
-- ==== Proof.LibPlainDot.lean ====
/-
  General lemmas about a contraction of a matrix's columns with another matrix's rows, read at the
  extended reals, and about a sum along the rows of a matrix.

  * A dot whose dimension numbers contract axis 1 of an [M, K] operand with axis 0 of a [K, N] operand, with
    no batch axis, has at the output entry (p, q) the operand entries (p, k) and (k, q) at contraction
    position k, so its value there is the textbook sum over k of l (p, k) · r (k, q). This holds for every
    record with those dimension numbers, whatever its well-formedness proof.
  * The same for a kernel's matrix product into a zero accumulator and for the host's dot_general.
  * A sum of a [R, C] matrix along axis 1 at row p is the sum over k of the entries (p, k).
  * A vector made a column, [a] to [a, 1] (or to [a, 1, 1]), a column made a vector again, and a column repeated along
    the rows, [a, 1] to [a, b], each read at an entry.
-/
import Idealize.ShloMosaic.PureOps.Ideal.Laws
import Idealize.ShloMosaic.Lib.ValueIdx
import Idealize.ShloMosaic.Lib.ValueLayout

noncomputable section

namespace Idealize.ShloMosaic.PlainDot

open Idealize.ShloMosaic Idealize.ShloMosaic.ValueIdx
open scoped BigOperators

variable {M K N : Nat}

/-- The record with the dimension numbers of a plain matrix product, at any well-formedness proof. -/
abbrev mk (wf : DotDims.WF (⟨2, ![M, K]⟩ : Shape) (⟨2, ![K, N]⟩ : Shape) (⟨2, ![M, N]⟩ : Shape) [1] [0] [0] [1] [] []) :
    DotDims (⟨2, ![M, K]⟩ : Shape) (⟨2, ![K, N]⟩ : Shape) (⟨2, ![M, N]⟩ : Shape) :=
  ⟨[1], [0], [0], [1], [], [], wf⟩

section
variable (wf : DotDims.WF (⟨2, ![M, K]⟩ : Shape) (⟨2, ![K, N]⟩ : Shape) (⟨2, ![M, N]⟩ : Shape) [1] [0] [0] [1] [] [])

theorem lhs0 (j : (⟨2, ![M, N]⟩ : Shape).Idx) (q : (mk wf).contr.Idx) : ((mk wf).lhsIdx j q 0).val = (j 0).val := by
  unfold DotDims.lhsIdx
  rw [dif_neg (show ¬(0 : Fin (⟨2, ![M, K]⟩ : Shape).rank) ∈ (mk wf).lhsBatch from List.not_mem_nil),
    dif_pos (show (0 : Fin (⟨2, ![M, K]⟩ : Shape).rank) ∈ (mk wf).lhsNonContracting from List.mem_singleton_self _)]
  rfl

theorem lhs1 (j : (⟨2, ![M, N]⟩ : Shape).Idx) (q : (mk wf).contr.Idx) : ((mk wf).lhsIdx j q 1).val = (q ⟨0, Nat.one_pos⟩).val :=
  (mk wf).lhsIdx_val_of_single rfl j q

theorem rhs0 (j : (⟨2, ![M, N]⟩ : Shape).Idx) (q : (mk wf).contr.Idx) : ((mk wf).rhsIdx j q 0).val = (q ⟨0, Nat.one_pos⟩).val :=
  (mk wf).rhsIdx_val_of_single rfl j q

theorem rhs1 (j : (⟨2, ![M, N]⟩ : Shape).Idx) (q : (mk wf).contr.Idx) : ((mk wf).rhsIdx j q 1).val = (j 1).val := by
  unfold DotDims.rhsIdx
  rw [dif_neg (show ¬(1 : Fin (⟨2, ![K, N]⟩ : Shape).rank) ∈ (mk wf).rhsBatch from List.not_mem_nil),
    dif_pos (show (1 : Fin (⟨2, ![K, N]⟩ : Shape).rank) ∈ (mk wf).rhsNonContracting from List.mem_singleton_self _)]
  rfl

/-- The contraction sum of a plain product at the entry (p, q): over k, the left entry (p, k) times the right entry (k, q). -/
theorem sum_mk {α : Type} [AddCommMonoid α] [Mul α] (l : (⟨2, ![M, K]⟩ : Shape).Idx → α) (r : (⟨2, ![K, N]⟩ : Shape).Idx → α)
    (p : Fin M) (q : Fin N) :
    ∑ k : (mk wf).contr.Idx, l ((mk wf).lhsIdx (ix2 p q) k) * r ((mk wf).rhsIdx (ix2 p q) k)
      = ∑ k : Fin K, l (ix2 p k) * r (ix2 k q) := by
  rw [← Equiv.sum_comp (contrEquiv1 (mk wf) K rfl rfl).symm]
  refine Finset.sum_congr rfl fun k _ => ?_
  have hk := contrEquiv1_symm_val (mk wf) K rfl rfl k
  have el : (mk wf).lhsIdx (ix2 p q) ((contrEquiv1 (mk wf) K rfl rfl).symm k) = ix2 p k := funext fun a => Fin.ext (by
    match a with
    | ⟨0, _⟩ => exact lhs0 wf _ _
    | ⟨1, _⟩ => exact (lhs1 wf _ _).trans hk)
  have er : (mk wf).rhsIdx (ix2 p q) ((contrEquiv1 (mk wf) K rfl rfl).symm k) = ix2 k q := funext fun a => Fin.ext (by
    match a with
    | ⟨0, _⟩ => exact (rhs0 wf _ _).trans hk
    | ⟨1, _⟩ => exact rhs1 wf _ _)
  rw [el, er]
end

/-- Every record whose dimension numbers are the plain product's is `mk` of its own well-formedness proof. -/
theorem sum_of_plain {α : Type} [AddCommMonoid α] [Mul α]
    (D : DotDims (⟨2, ![M, K]⟩ : Shape) (⟨2, ![K, N]⟩ : Shape) (⟨2, ![M, N]⟩ : Shape))
    (h1 : D.lhsContracting = [1]) (h2 : D.rhsContracting = [0]) (h3 : D.lhsNonContracting = [0])
    (h4 : D.rhsNonContracting = [1]) (h5 : D.lhsBatch = []) (h6 : D.rhsBatch = [])
    (l : (⟨2, ![M, K]⟩ : Shape).Idx → α) (r : (⟨2, ![K, N]⟩ : Shape).Idx → α) (p : Fin M) (q : Fin N) :
    ∑ k : D.contr.Idx, l (D.lhsIdx (ix2 p q) k) * r (D.rhsIdx (ix2 p q) k) = ∑ k : Fin K, l (ix2 p k) * r (ix2 k q) := by
  obtain ⟨lc, rc, ln, rn, lb, rb, wf⟩ := D
  simp only at h1 h2 h3 h4 h5 h6
  subst h1 h2 h3 h4 h5 h6
  exact sum_mk wf l r p q

/-- A kernel's matrix product into the zero accumulator, at the entry (p, q). -/
theorem matmul_zero_apply {φ₁ φ₂ : FTy}
    (D : DotDims (⟨2, ![M, K]⟩ : Shape) (⟨2, ![K, N]⟩ : Shape) (⟨2, ![M, N]⟩ : Shape))
    (h1 : D.lhsContracting = [1]) (h2 : D.rhsContracting = [0]) (h3 : D.lhsNonContracting = [0])
    (h4 : D.rhsNonContracting = [1]) (h5 : D.lhsBatch = []) (h6 : D.rhsBatch = [])
    (prec : Option ContractPrecision) (l : FVec Ideal (⟨2, ![M, K]⟩ : Shape) φ₁) (r : FVec Ideal (⟨2, ![K, N]⟩ : Shape) φ₂)
    (p : Fin M) (q : Fin N) :
    FloatOps.matmul D prec l r (constant (⟨2, ![M, N]⟩ : Shape) .f32 0x00000000#32) (ix2 p q)
      = ∑ k : Fin K, (l (ix2 p k) : EReal) * (r (ix2 k q) : EReal) :=
  (Ideal.matmul_constant_zero_apply D prec l r (ix2 p q)).trans
    (sum_of_plain (α := EReal) D h1 h2 h3 h4 h5 h6 l r p q)

/-- The host's dot_general of the same dimension numbers, at the entry (p, q). -/
theorem dotGeneral_apply {φ₁ φ₂ : FTy}
    (D : DotDims (⟨2, ![M, K]⟩ : Shape) (⟨2, ![K, N]⟩ : Shape) (⟨2, ![M, N]⟩ : Shape))
    (h1 : D.lhsContracting = [1]) (h2 : D.rhsContracting = [0]) (h3 : D.lhsNonContracting = [0])
    (h4 : D.rhsNonContracting = [1]) (h5 : D.lhsBatch = []) (h6 : D.rhsBatch = [])
    (prec : Option ContractPrecision) (sched : HostSchedule)
    (l : FVec Ideal (⟨2, ![M, K]⟩ : Shape) φ₁) (r : FVec Ideal (⟨2, ![K, N]⟩ : Shape) φ₂) (p : Fin M) (q : Fin N) :
    FloatOps.dotGeneral D prec sched l r (ix2 p q) = ∑ k : Fin K, (l (ix2 p k) : EReal) * (r (ix2 k q) : EReal) :=
  (Ideal.dotGeneral_apply D prec sched l r (ix2 p q)).trans
    (sum_of_plain (α := EReal) D h1 h2 h3 h4 h5 h6 l r p q)

/-- A kernel's sum of an [R, C] matrix along axis 1, at row p: the sum over k of the entries (p, k). -/
theorem rowSum_apply {R C : Nat} {φ : FTy} (src : FVec Ideal (⟨2, ![R, C]⟩ : Shape) φ) (acc : BitVec φ.bits)
    (h : Shape.Reduces (⟨2, ![R, C]⟩ : Shape) [1] (⟨1, ![R]⟩ : Shape)) (hφ : FKind.Formats φ)
    (hacc : acc = FKind.add.neutral φ hφ) (p : Fin R) :
    multiReduction .add [1] (⟨1, ![R]⟩ : Shape) src acc h hφ hacc (ix1 p) = ∑ k : Fin C, (src (ix2 p k) : EReal) := by
  refine (Ideal.multiReduction_add_single src acc h hφ hacc (ix1 p)).trans ?_
  refine Finset.sum_congr rfl fun k _ => congrArg src ?_
  funext a
  exact Fin.ext (by match a with | ⟨0, _⟩ => rfl | ⟨1, _⟩ => rfl)

/-- An `[a]` vector cast to the column `[a, 1]` reads, at `(i, 0)`, the operand at `i`. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- A column `[a, 1]` broadcast along the rows to `[a, b]` reads, at `(p, c)`, the operand at `(p, 0)`. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A column `[a, 1]` cast to the vector `[a]` reads, at `i`, the operand at `(i, 0)`. -/
theorem shapeCast_a1_a_apply {α : Type} {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    omega)

/-- An `[a]` vector cast to `[a, 1, 1]` reads, at `(i, 0, 0)`, the operand at `i`. -/
theorem shapeCast_a_a11_apply {α : Type} {a : ℕ} (x : (⟨1, ![a]⟩ : Shape).Idx → α) (h : (⟨1, ![a]⟩ : Shape).ShapeCasts ⟨3, ![a, 1, 1]⟩)
    (i : Fin a) (u w : Fin 1) : shapeCast ⟨3, ![a, 1, 1]⟩ x h (ix3 i u w) = x (ix1 i) :=
  shapeCast_apply x h _ _ (by
    have hu : u.val = 0 := by omega
    have hw : w.val = 0 := by omega
    rw [Shape.rowMajor_val_three, Shape.rowMajor_val_one]
    show i.val = (i.val * 1 + u.val) * 1 + w.val
    omega)

end Idealize.ShloMosaic.PlainDot

end
-- ==== Proof.KernelLayers.lean ====
/-
  The kernel's layers read one column at a time over the extended reals.

  The kernel keeps the rows of the problem along the lanes: a block of 16000 input rows is a [3, 16000] array, a hidden
  layer's values a [50, 16000] array, and each layer multiplies a transposed weight matrix from the left and adds the
  bias as a column repeated along the lanes. Column q of every such array depends only on column q of the one before:
  entry (j, q) of the next array is the sum over k of the weight entry (j, k) times the previous entry (k, q), plus the
  bias entry (j, 0), under the hyperbolic tangent. With the weight entry (j, k) read as W k j this is the specification's
  layer applied to column q, the two factors of each product in the other order. Cutting a value to a shorter float
  format is the identity over the extended reals.
-/
import proofs.«156876_j74036646248987_1_alg».proof.Proof.Gen.KernelIdeal.Skeleton
import proofs.«156876_j74036646248987_1_alg».proof.Proof.LibPlainDot
import proofs.«156876_j74036646248987_1_alg».proof.Proof.Spec
import Idealize.ShloMosaic.Lib.Pipeline.Value
import Idealize.ShloMosaic.Lib.ValueLayout

noncomputable section

namespace Cert.KernelIdeal.Layers

open Cert.KernelIdeal Cert.KernelIdeal.Gen Idealize.ShloMosaic Idealize.ShloMosaic.ValueIdx
open scoped BigOperators

/-! ## Loads of one slice of the stacked weights and biases -/

/-- Slice i of the [7, 50, 50] stack, loaded as one [1, 50, 50] piece and cast to [50, 50]: entry (j, k) is the stack's
    entry (i, j, k). -/
theorem slabW (X : Vec Ideal S7x50x50 .bf16) (i : Fin 7) (off : Fin 3 → ℕ) (hoff : off = ![i.val, 0, 0])
    (inb : ∀ a, off a + S1x50x50.size a ≤ S7x50x50.size a) (j k : Fin 50) :
    shapeCast S50x50 (View.ld X (Rect.unit (s := S7x50x50) off S1x50x50.size inb)) shapeCasts_S1x50x50_S50x50 (ix2 j k)
      = X (ix3 i j k) := by
  subst hoff
  rw [shapeCast_1ab_ab_apply]
  show X ((Rect.unit (s := S7x50x50) ![i.val, 0, 0] S1x50x50.size inb).emb (ix3 (0 : Fin 1) j k)) = _
  refine congrArg X (funext fun a => Fin.ext ?_)
  match a with
  | ⟨0, _⟩ => show i.val + 1 * 0 = i.val; omega
  | ⟨1, _⟩ => show 0 + 1 * j.val = j.val; omega
  | ⟨2, _⟩ => show 0 + 1 * k.val = k.val; omega

/-- Slice i of the [7, 50, 1] stack of bias columns, loaded as one [1, 50, 1] piece and cast to [50, 1]: entry (j, 0) is
    the stack's entry (i, j, 0). -/
theorem slabB (X : Vec Ideal S7x50x1 .f32) (i : Fin 7) (off : Fin 3 → ℕ) (hoff : off = ![i.val, 0, 0])
    (inb : ∀ a, off a + S1x50x1.size a ≤ S7x50x1.size a) (j : Fin 50) :
    shapeCast S50x1 (View.ld X (Rect.unit (s := S7x50x1) off S1x50x1.size inb)) shapeCasts_S1x50x1_S50x1 (ix2 j (0 : Fin 1))
      = X (ix3 i j (0 : Fin 1)) := by
  subst hoff
  rw [shapeCast_1ab_ab_apply]
  show X ((Rect.unit (s := S7x50x1) ![i.val, 0, 0] S1x50x1.size inb).emb (ix3 (0 : Fin 1) j (0 : Fin 1))) = _
  refine congrArg X (funext fun a => Fin.ext ?_)
  match a with
  | ⟨0, _⟩ => show i.val + 1 * 0 = i.val; omega
  | ⟨1, _⟩ => show 0 + 1 * j.val = j.val; omega
  | ⟨2, _⟩ => show 0 + 1 * 0 = 0; omega

/-! ## One layer at a column -/

/-- A hidden layer: if column q of the previous array is the row h, the weight entry (j, k) is w k j and the bias entry
    (j, 0) is b j, then column q of the next array is the specification's layer of h. -/
theorem midLayer (W : FVec Ideal S50x50 .bf16) (B : FVec Ideal S50x1 .f32) (H : FVec Ideal S50x16000 .f32) (q : Fin 16000)
    (h : Fin 50 → EReal) (w : Fin 50 → Fin 50 → EReal) (b : Fin 50 → EReal)
    (hH : ∀ k, H (ix2 k q) = h k) (hW : ∀ j k, W (ix2 j k) = w k j) (hB : ∀ j, B (ix2 j (0 : Fin 1)) = b j) (j : Fin 50) :
    tanh (addf (matmul dot_S50x50_S50x16000_S50x16000_1_0_0_1_n_n none W (truncf .bf16 H bitsLt_bf16_f32)
        (constant S50x16000 .f32 0x00000000#32)) (broadcastTo S50x16000 B broadcasts_S50x1_S50x16000)) (ix2 j q)
      = Cert.Mlp.act (Cert.Mlp.dense h w b) j := by
  show Ideal.tanh (FloatOps.matmul dot_S50x50_S50x16000_S50x16000_1_0_0_1_n_n none W (truncf .bf16 H bitsLt_bf16_f32)
      (constant S50x16000 .f32 0x00000000#32) (ix2 j q) + broadcastTo S50x16000 B broadcasts_S50x1_S50x16000 (ix2 j q)) = _
  rw [PlainDot.matmul_zero_apply _ rfl rfl rfl rfl rfl rfl none W _ j q, PlainDot.broadcastTo_a1_ab_apply B _ j q, hB j]
  show Ideal.tanh ((∑ k : Fin 50, W (ix2 j k) * H (ix2 k q)) + b j) = _
  simp only [hH, hW]
  exact congrArg Ideal.tanh (Cert.Mlp.dense_comm h w b j)

/-- The last layer, which has no hyperbolic tangent: column q of the [3, 16000] result. -/
theorem outLayer (W : FVec Ideal S3x50 .bf16) (B : FVec Ideal S3x1 .f32) (H : FVec Ideal S50x16000 .f32) (q : Fin 16000)
    (h : Fin 50 → EReal) (w : Fin 50 → Fin 3 → EReal) (b : Fin 3 → EReal)
    (hH : ∀ k, H (ix2 k q) = h k) (hW : ∀ c k, W (ix2 c k) = w k c) (hB : ∀ c, B (ix2 c (0 : Fin 1)) = b c) (c : Fin 3) :
    addf (matmul dot_S3x50_S50x16000_S3x16000_1_0_0_1_n_n none W (truncf .bf16 H bitsLt_bf16_f32)
        (constant S3x16000 .f32 0x00000000#32)) (broadcastTo S3x16000 B broadcasts_S3x1_S3x16000) (ix2 c q)
      = Cert.Mlp.dense h w b c := by
  show FloatOps.matmul dot_S3x50_S50x16000_S3x16000_1_0_0_1_n_n none W (truncf .bf16 H bitsLt_bf16_f32)
      (constant S3x16000 .f32 0x00000000#32) (ix2 c q) + broadcastTo S3x16000 B broadcasts_S3x1_S3x16000 (ix2 c q) = _
  rw [PlainDot.matmul_zero_apply _ rfl rfl rfl rfl rfl rfl none W _ c q, PlainDot.broadcastTo_a1_ab_apply B _ c q, hB c]
  show (∑ k : Fin 50, W (ix2 c k) * H (ix2 k q)) + b c = _
  simp only [hH, hW]
  exact Cert.Mlp.dense_comm h w b c

/-- The three input rows stacked along axis 0: row k of the [3, 16000] array is piece k, read at its only row. -/
theorem concatRows (a b c : FVec Ideal S1x16000 .bf16) (q : Fin 16000) (k : Fin 3) :
    concatenate S3x16000 0 [⟨S1x16000, a⟩, ⟨S1x16000, b⟩, ⟨S1x16000, c⟩] concatenates_S1x16000_S1x16000_S1x16000_S3x16000_d0 (ix2 k q)
      = ![a (ix2 (0 : Fin 1) q), b (ix2 (0 : Fin 1) q), c (ix2 (0 : Fin 1) q)] k := by
  match k with
  | ⟨0, _⟩ =>
    exact concatenate_apply_piece (t := S3x16000) 0 _ _ _ 0 (by show (0 : ℕ) < 3; decide) S1x16000 a rfl rfl 0 rfl (ix2 (0 : Fin 1) q)
      (fun d hd => by match d with | ⟨0, _⟩ => exact absurd rfl hd | ⟨1, _⟩ => rfl) rfl
  | ⟨1, _⟩ =>
    exact concatenate_apply_piece (t := S3x16000) 0 _ _ _ 1 (by show (1 : ℕ) < 3; decide) S1x16000 b rfl rfl 1 rfl (ix2 (0 : Fin 1) q)
      (fun d hd => by match d with | ⟨0, _⟩ => exact absurd rfl hd | ⟨1, _⟩ => rfl) rfl
  | ⟨2, _⟩ =>
    exact concatenate_apply_piece (t := S3x16000) 0 _ _ _ 2 (by show (2 : ℕ) < 3; decide) S1x16000 c rfl rfl 2 rfl (ix2 (0 : Fin 1) q)
      (fun d hd => by match d with | ⟨0, _⟩ => exact absurd rfl hd | ⟨1, _⟩ => rfl) rfl

/-- The first layer: the [50, 3] weight matrix times the three stacked input rows, plus the bias column, under the
    hyperbolic tangent, at column q. -/
theorem firstLayer (W : FVec Ideal S50x3 .bf16) (B : FVec Ideal S50x1 .f32) (U : FVec Ideal S3x16000 .bf16) (q : Fin 16000)
    (u : Fin 3 → EReal) (w : Fin 3 → Fin 50 → EReal) (b : Fin 50 → EReal)
    (hU : ∀ k, U (ix2 k q) = u k) (hW : ∀ j k, W (ix2 j k) = w k j) (hB : ∀ j, B (ix2 j (0 : Fin 1)) = b j) (j : Fin 50) :
    tanh (addf (matmul dot_S50x3_S3x16000_S50x16000_1_0_0_1_n_n none W U
        (constant S50x16000 .f32 0x00000000#32)) (broadcastTo S50x16000 B broadcasts_S50x1_S50x16000)) (ix2 j q)
      = Cert.Mlp.act (Cert.Mlp.dense u w b) j := by
  show Ideal.tanh (FloatOps.matmul dot_S50x3_S3x16000_S50x16000_1_0_0_1_n_n none W U
      (constant S50x16000 .f32 0x00000000#32) (ix2 j q) + broadcastTo S50x16000 B broadcasts_S50x1_S50x16000 (ix2 j q)) = _
  rw [PlainDot.matmul_zero_apply _ rfl rfl rfl rfl rfl rfl none W _ j q, PlainDot.broadcastTo_a1_ab_apply B _ j q, hB j]
  simp only [hU, hW]
  exact congrArg Ideal.tanh (Cert.Mlp.dense_comm u w b j)

end Cert.KernelIdeal.Layers

end
-- ==== Proof.KernelBlock.lean ====
/-
  What one grid point's body stores, read at an entry: the network at the block's column.

  The body loads three [1, 16000] input rows, the transposed weight matrices and the bias columns, computes the nine
  layers on [50, 16000] arrays and stores a [3, 16000] block. Entry (c, q) of the stored block is output c of the
  specification's network applied to the row (x0 (0, q), x1 (0, q), x2 (0, q)), with the weights read through the
  kernel's layout: the first matrix's entry (k, j) is the loaded [50, 3] array's entry (j, k), hidden matrix i's entry
  (k, j) is the loaded [7, 50, 50] stack's entry (i, j, k), a bias entry j is the loaded column's entry (j, 0).
-/
import proofs.«156876_j74036646248987_1_alg».proof.Proof.Gen.KernelIdeal.Frame
import proofs.«156876_j74036646248987_1_alg».proof.Proof.KernelLayers

noncomputable section

namespace Cert.KernelIdeal.Block

open Cert.KernelIdeal Cert.KernelIdeal.Gen Idealize.ShloMosaic Idealize.ShloMosaic.ValueIdx
open scoped BigOperators

theorem zero2 : (![0, 0] : Fin 2 → Nat) = fun _ => 0 := funext fun a => by fin_cases a <;> rfl

/-- The stored block at (c, q) is output c of the network at column q of the three input rows. -/
theorem block_apply (x0 x1 x2 : Vec Ideal S1x16000 .f32) (x3 : Vec Ideal S50x3 .bf16) (x4 : Vec Ideal S50x1 .f32)
    (x5 : Vec Ideal S7x50x50 .bf16) (x6 : Vec Ideal S7x50x1 .f32) (x7 : Vec Ideal S3x50 .bf16) (x8 : Vec Ideal S3x1 .f32)
    (c : Fin 3) (q : Fin 16000) :
    out0_9 (F := Ideal) x0 x1 x2 x3 x4 x5 x6 x7 x8 (ix2 c q)
      = Cert.Mlp.net (fun k j => x3 (ix2 j k)) (fun j => x4 (ix2 j (0 : Fin 1))) (fun i k j => x5 (ix3 i j k))
          (fun i j => x6 (ix3 i j (0 : Fin 1))) (fun k c => x7 (ix2 c k)) (fun c => x8 (ix2 c (0 : Fin 1)))
          ![x0 (ix2 (0 : Fin 1) q), x1 (ix2 (0 : Fin 1) q), x2 (ix2 (0 : Fin 1) q)] c := by
  unfold out0_9
  rw [View.canon_unit_zero zero2]
  simp only [View.ld_unit_zero (S := S1x16000) zero2, View.ld_unit_zero (S := S50x3) zero2,
    View.ld_unit_zero (S := S50x1) zero2, View.ld_unit_zero (S := S3x50) zero2, View.ld_unit_zero (S := S3x1) zero2]
  unfold k0_pay1 k0_pay4 k0_pay2 k0_pay3 k0_pay5 k0_pay6
  dsimp only
  simp only [shapeCast_self]
  unfold Cert.Mlp.net Cert.Mlp.hidden Cert.Mlp.mid Cert.Mlp.first
  -- the layers from the last back to the first, each at column q
  refine Layers.outLayer _ _ _ q _ _ _ (fun k => ?_) (fun c k => rfl) (fun c => rfl) c
  refine Layers.midLayer _ _ _ q _ _ _ (fun k => ?_) (fun j k => Layers.slabW x5 6 _ rfl _ j k) (fun j => Layers.slabB x6 6 _ rfl _ j) k
  refine Layers.midLayer _ _ _ q _ _ _ (fun k => ?_) (fun j k => Layers.slabW x5 5 _ rfl _ j k) (fun j => Layers.slabB x6 5 _ rfl _ j) k
  refine Layers.midLayer _ _ _ q _ _ _ (fun k => ?_) (fun j k => Layers.slabW x5 4 _ rfl _ j k) (fun j => Layers.slabB x6 4 _ rfl _ j) k
  refine Layers.midLayer _ _ _ q _ _ _ (fun k => ?_) (fun j k => Layers.slabW x5 3 _ rfl _ j k) (fun j => Layers.slabB x6 3 _ rfl _ j) k
  refine Layers.midLayer _ _ _ q _ _ _ (fun k => ?_) (fun j k => Layers.slabW x5 2 _ rfl _ j k) (fun j => Layers.slabB x6 2 _ rfl _ j) k
  refine Layers.midLayer _ _ _ q _ _ _ (fun k => ?_) (fun j k => Layers.slabW x5 1 _ rfl _ j k) (fun j => Layers.slabB x6 1 _ rfl _ j) k
  refine Layers.midLayer _ _ _ q _ _ _ (fun k => ?_) (fun j k => Layers.slabW x5 0 _ rfl _ j k) (fun j => Layers.slabB x6 0 _ rfl _ j) k
  refine Layers.firstLayer _ _ _ q _ _ _ (fun k => ?_) (fun j k => rfl) (fun j => rfl) k
  refine (Layers.concatRows _ _ _ q k).trans ?_
  rw [shapeCast_self x0, shapeCast_self x1, shapeCast_self x2]
  rfl

end Cert.KernelIdeal.Block

end
-- ==== Proof.KernelArray.lean ====
/-
  From blocks to arrays: what the kernel's region leaves in its [3, 2000000] result array.

  Before the region the host reshapes each [2000000, 1] input column to a [1, 2000000] row, transposes each weight matrix
  and reshapes each bias to a column; none of this changes a value, only where it sits: the row's entry (0, n) is the
  column's entry (n, 0), a transposed matrix's entry (j, k) is the matrix's entry (k, j), a bias column's entry (j, 0) is
  the bias entry j. Grid point t works on lanes 16000 t to 16000 t + 15999: its input blocks are those lanes of the three
  rows, its weight blocks are the whole arrays, and it writes those lanes of the result. So entry (c, n) of the result
  array is output c of the specification's network at input row n, and the 125 blocks cover all 2000000 lanes.
-/
import proofs.«156876_j74036646248987_1_alg».proof.Proof.Gen.KernelIdeal.Frame
import proofs.«156876_j74036646248987_1_alg».proof.Proof.KernelBlock
import Idealize.ShloMosaic.Lib.StableHlo.Run
import Idealize.ShloMosaic.Lib.Pipeline.Value
import Idealize.ShloMosaic.Lib.ValueLayout

noncomputable section

namespace Cert.KernelIdeal.Arr

open Cert.KernelIdeal Cert.KernelIdeal.Gen Idealize.ShloMosaic Idealize.ShloMosaic.TcCoe Idealize.SL.Sem
open Idealize.ShloMosaic.StableHlo Idealize.ShloMosaic.ValueIdx
open scoped BigOperators

variable (m : (ℓ : Loc nD τ sig) → Buf (Elt Ideal) ℓ)

/-! ## The argument arrays, at their literal types -/

abbrev aX (c : Dev nD) : FVec Ideal S2000000x1 .f32 := m ((c : Thread nD τ).loc main_arg0)
abbrev aY (c : Dev nD) : FVec Ideal S2000000x1 .f32 := m ((c : Thread nD τ).loc main_arg1)
abbrev aZ (c : Dev nD) : FVec Ideal S2000000x1 .f32 := m ((c : Thread nD τ).loc main_arg2)
abbrev aWin (c : Dev nD) : FVec Ideal S3x50 .f32 := m ((c : Thread nD τ).loc main_arg3)
abbrev aBin (c : Dev nD) : FVec Ideal S50 .f32 := m ((c : Thread nD τ).loc main_arg4)
abbrev aWmid (c : Dev nD) : FVec Ideal S7x50x50 .f32 := m ((c : Thread nD τ).loc main_arg5)
abbrev aBmid (c : Dev nD) : FVec Ideal S7x50 .f32 := m ((c : Thread nD τ).loc main_arg6)
abbrev aWout (c : Dev nD) : FVec Ideal S50x3 .f32 := m ((c : Thread nD τ).loc main_arg7)
abbrev aBout (c : Dev nD) : FVec Ideal S3 .f32 := m ((c : Thread nD τ).loc main_arg8)

/-! ## The arrays the region finds, read at an entry -/

/-- An input column made a row: entry (0, n) of the row is entry (n, 0) of the column. -/
theorem row_of_col (x : FVec Ideal S2000000x1 .f32) (n : Fin 2000000) :
    shapeCast S1x2000000 x shapeCasts_S2000000x1_S1x2000000 (ix2 (0 : Fin 1) n) = x (ix2 n (0 : Fin 1)) :=
  shapeCast_apply _ _ _ _ (by
    rw [Shape.rowMajor_val_two, Shape.rowMajor_val_two]
    show n.val * 1 + 0 = 0 * 2000000 + n.val
    omega)

theorem V_v0 (c : Dev nD) : (V m c main_v0 : S1x2000000.Idx → EReal)
    = shapeCast S1x2000000 (aX m c) shapeCasts_S2000000x1_S1x2000000 := by
  show StableHlo.after hostOps0 (fun b => m (c, b)) (Proc.devRef .tc main_v0) = _
  after_results
  rfl

theorem V_v1 (c : Dev nD) : (V m c main_v1 : S1x2000000.Idx → EReal)
    = shapeCast S1x2000000 (aY m c) shapeCasts_S2000000x1_S1x2000000 := by
  show StableHlo.after hostOps0 (fun b => m (c, b)) (Proc.devRef .tc main_v1) = _
  after_results
  rfl

theorem V_v2 (c : Dev nD) : (V m c main_v2 : S1x2000000.Idx → EReal)
    = shapeCast S1x2000000 (aZ m c) shapeCasts_S2000000x1_S1x2000000 := by
  show StableHlo.after hostOps0 (fun b => m (c, b)) (Proc.devRef .tc main_v2) = _
  after_results
  rfl

/-- The first weight matrix as the region finds it: transposed, entry (j, k) is the argument's entry (k, j). -/
theorem V_v4 (c : Dev nD) (j : Fin 50) (k : Fin 3) :
    (V m c main_v4 : S50x3.Idx → EReal) (ix2 j k) = aWin m c (ix2 k j) := by
  have e : (V m c main_v4 : S50x3.Idx → EReal)
      = (truncf (F := Ideal) .bf16 (transpose S50x3 [1, 0] (aWin m c) transposes_S3x50_S50x3_1_0) bitsLt_bf16_f32 : S50x3.Idx → EReal) := by
    show StableHlo.after hostOps0 (fun b => m (c, b)) (Proc.devRef .tc main_v4) = _
    after_results
  rw [e]
  show transpose S50x3 [1, 0] (aWin m c) transposes_S3x50_S50x3_1_0 (ix2 j k) = _
  exact transpose_apply _ _ _ _ (ix2 k j) (fun b => by match b with | ⟨0, _⟩ => rfl | ⟨1, _⟩ => rfl)

/-- The first bias as the region finds it: a column, entry (j, 0) is the argument's entry j. -/
theorem V_v5 (c : Dev nD) (j : Fin 50) :
    (V m c main_v5 : S50x1.Idx → EReal) (ix2 j (0 : Fin 1)) = aBin m c (ix1 j) := by
  have e : (V m c main_v5 : S50x1.Idx → EReal) = shapeCast S50x1 (aBin m c) shapeCasts_S50_S50x1 := by
    show StableHlo.after hostOps0 (fun b => m (c, b)) (Proc.devRef .tc main_v5) = _
    after_results
    rfl
  rw [e]
  exact PlainDot.shapeCast_a_a1_apply _ _ j 0

/-- The stacked hidden weight matrices as the region finds them: each transposed, entry (i, j, k) is the argument's
    entry (i, k, j). -/
theorem V_v7 (c : Dev nD) (i : Fin 7) (j k : Fin 50) :
    (V m c main_v7 : S7x50x50.Idx → EReal) (ix3 i j k) = aWmid m c (ix3 i k j) := by
  have e : (V m c main_v7 : S7x50x50.Idx → EReal)
      = (truncf (F := Ideal) .bf16 (transpose S7x50x50 [0, 2, 1] (aWmid m c) transposes_S7x50x50_S7x50x50_0_2_1) bitsLt_bf16_f32 : S7x50x50.Idx → EReal) := by
    show StableHlo.after hostOps0 (fun b => m (c, b)) (Proc.devRef .tc main_v7) = _
    after_results
  rw [e]
  show transpose S7x50x50 [0, 2, 1] (aWmid m c) transposes_S7x50x50_S7x50x50_0_2_1 (ix3 i j k) = _
  exact transpose_apply _ _ _ _ (ix3 i k j) (fun b => by match b with | ⟨0, _⟩ => rfl | ⟨1, _⟩ => rfl | ⟨2, _⟩ => rfl)

/-- The stacked hidden biases as the region finds them: columns, entry (i, j, 0) is the argument's entry (i, j). -/
theorem V_v8 (c : Dev nD) (i : Fin 7) (j : Fin 50) :
    (V m c main_v8 : S7x50x1.Idx → EReal) (ix3 i j (0 : Fin 1)) = aBmid m c (ix2 i j) := by
  have e : (V m c main_v8 : S7x50x1.Idx → EReal) = shapeCast S7x50x1 (aBmid m c) shapeCasts_S7x50_S7x50x1 := by
    show StableHlo.after hostOps0 (fun b => m (c, b)) (Proc.devRef .tc main_v8) = _
    after_results
    rfl
  rw [e]
  exact shapeCast_apply _ _ _ _ (by
    rw [Shape.rowMajor_val_two, Shape.rowMajor_val_three]
    show i.val * 50 + j.val = (i.val * 50 + j.val) * 1 + 0
    omega)

/-- The last weight matrix as the region finds it: transposed, entry (c', k) is the argument's entry (k, c'). -/
theorem V_v10 (c : Dev nD) (c' : Fin 3) (k : Fin 50) :
    (V m c main_v10 : S3x50.Idx → EReal) (ix2 c' k) = aWout m c (ix2 k c') := by
  have e : (V m c main_v10 : S3x50.Idx → EReal)
      = (truncf (F := Ideal) .bf16 (transpose S3x50 [1, 0] (aWout m c) transposes_S50x3_S3x50_1_0) bitsLt_bf16_f32 : S3x50.Idx → EReal) := by
    show StableHlo.after hostOps0 (fun b => m (c, b)) (Proc.devRef .tc main_v10) = _
    after_results
  rw [e]
  show transpose S3x50 [1, 0] (aWout m c) transposes_S50x3_S3x50_1_0 (ix2 c' k) = _
  exact transpose_apply _ _ _ _ (ix2 k c') (fun b => by match b with | ⟨0, _⟩ => rfl | ⟨1, _⟩ => rfl)

/-- The last bias as the region finds it: a column, entry (c', 0) is the argument's entry c'. -/
theorem V_v11 (c : Dev nD) (c' : Fin 3) :
    (V m c main_v11 : S3x1.Idx → EReal) (ix2 c' (0 : Fin 1)) = aBout m c (ix1 c') := by
  have e : (V m c main_v11 : S3x1.Idx → EReal) = shapeCast S3x1 (aBout m c) shapeCasts_S3_S3x1 := by
    show StableHlo.after hostOps0 (fun b => m (c, b)) (Proc.devRef .tc main_v11) = _
    after_results
    rfl
  rw [e]
  exact PlainDot.shapeCast_a_a1_apply _ _ c' 0

/-! ## The index maps over the grid -/

/-- The printed index maps, decided over the 125 grid points: the three input rows and the result move along the
    lanes with the point, every weight and bias window stays at block zero. -/
theorem idx_facts : ∀ t : Fin cfg0.N,
    win0_0.index t (0 : Fin 2) = 0 ∧ win0_0.index t (1 : Fin 2) = t.val
    ∧ win0_1.index t (0 : Fin 2) = 0 ∧ win0_1.index t (1 : Fin 2) = t.val
    ∧ win0_2.index t (0 : Fin 2) = 0 ∧ win0_2.index t (1 : Fin 2) = t.val
    ∧ win0_3.index t (0 : Fin 2) = 0 ∧ win0_3.index t (1 : Fin 2) = 0
    ∧ win0_4.index t (0 : Fin 2) = 0 ∧ win0_4.index t (1 : Fin 2) = 0
    ∧ win0_5.index t (0 : Fin 3) = 0 ∧ win0_5.index t (1 : Fin 3) = 0 ∧ win0_5.index t (2 : Fin 3) = 0
    ∧ win0_6.index t (0 : Fin 3) = 0 ∧ win0_6.index t (1 : Fin 3) = 0 ∧ win0_6.index t (2 : Fin 3) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = t.val :=
  (by decide +kernel : ∀ t : Fin grid0.N, _)

theorem t_lt (t : Fin cfg0.N) : t.val < 125 := by
  have h : t.val < grid0.N := t.isLt
  rw [N_0] at h
  exact h

/-! ## A window's block at a point, read at an entry -/

/-- Lane q of grid point t's blocks is lane 16000 t + q of the rows. -/
def lane (t : Fin cfg0.N) (q : Fin 16000) : Fin 2000000 :=
  ⟨t.val * 16000 + q.val, by have h1 := t_lt t; have h2 := q.isLt; omega⟩

theorem lane_val (t : Fin cfg0.N) (q : Fin 16000) : (lane t q).val = t.val * 16000 + q.val := rfl

theorem blk0 (c : Dev nD) (t : Fin cfg0.N) (q : Fin 16000) :
    (iblk m c 0 t : S1x16000.Idx → EReal) (ix2 (0 : Fin 1) q) = aX m c (ix2 (lane t q) (0 : Fin 1)) := by
  have hf := idx_facts t
  show (V m c main_v0 : S1x2000000.Idx → EReal) (((cfg0.win 0).blk t).view.emb (ix2 (0 : Fin 1) q)) = _
  have e : ((cfg0.win 0).blk t).view.emb (ix2 (0 : Fin 1) q) = ix2 (0 : Fin 1) (lane t q) := by
    funext a; apply Fin.ext
    match a with
    | ⟨0, _⟩ => show win0_0.index t (0 : Fin 2) * 1 + 1 * 0 = 0; omega
    | ⟨1, _⟩ => show win0_0.index t (1 : Fin 2) * 16000 + 1 * q.val = t.val * 16000 + q.val; omega
  rw [e, V_v0]
  exact row_of_col _ _

theorem blk1 (c : Dev nD) (t : Fin cfg0.N) (q : Fin 16000) :
    (iblk m c 1 t : S1x16000.Idx → EReal) (ix2 (0 : Fin 1) q) = aY m c (ix2 (lane t q) (0 : Fin 1)) := by
  have hf := idx_facts t
  show (V m c main_v1 : S1x2000000.Idx → EReal) (((cfg0.win 1).blk t).view.emb (ix2 (0 : Fin 1) q)) = _
  have e : ((cfg0.win 1).blk t).view.emb (ix2 (0 : Fin 1) q) = ix2 (0 : Fin 1) (lane t q) := by
    funext a; apply Fin.ext
    match a with
    | ⟨0, _⟩ => show win0_1.index t (0 : Fin 2) * 1 + 1 * 0 = 0; omega
    | ⟨1, _⟩ => show win0_1.index t (1 : Fin 2) * 16000 + 1 * q.val = t.val * 16000 + q.val; omega
  rw [e, V_v1]
  exact row_of_col _ _

theorem blk2 (c : Dev nD) (t : Fin cfg0.N) (q : Fin 16000) :
    (iblk m c 2 t : S1x16000.Idx → EReal) (ix2 (0 : Fin 1) q) = aZ m c (ix2 (lane t q) (0 : Fin 1)) := by
  have hf := idx_facts t
  show (V m c main_v2 : S1x2000000.Idx → EReal) (((cfg0.win 2).blk t).view.emb (ix2 (0 : Fin 1) q)) = _
  have e : ((cfg0.win 2).blk t).view.emb (ix2 (0 : Fin 1) q) = ix2 (0 : Fin 1) (lane t q) := by
    funext a; apply Fin.ext
    match a with
    | ⟨0, _⟩ => show win0_2.index t (0 : Fin 2) * 1 + 1 * 0 = 0; omega
    | ⟨1, _⟩ => show win0_2.index t (1 : Fin 2) * 16000 + 1 * q.val = t.val * 16000 + q.val; omega
  rw [e, V_v2]
  exact row_of_col _ _

theorem blk3 (c : Dev nD) (t : Fin cfg0.N) (j : Fin 50) (k : Fin 3) :
    (iblk m c 3 t : S50x3.Idx → EReal) (ix2 j k) = aWin m c (ix2 k j) := by
  have hf := idx_facts t
  show (V m c main_v4 : S50x3.Idx → EReal) (((cfg0.win 3).blk t).view.emb (ix2 j k)) = _
  have e : ((cfg0.win 3).blk t).view.emb (ix2 j k) = ix2 j k := by
    funext a; apply Fin.ext
    match a with
    | ⟨0, _⟩ => show win0_3.index t (0 : Fin 2) * 50 + 1 * j.val = j.val; omega
    | ⟨1, _⟩ => show win0_3.index t (1 : Fin 2) * 3 + 1 * k.val = k.val; omega
  rw [e]
  exact V_v4 m c j k

theorem blk4 (c : Dev nD) (t : Fin cfg0.N) (j : Fin 50) :
    (iblk m c 4 t : S50x1.Idx → EReal) (ix2 j (0 : Fin 1)) = aBin m c (ix1 j) := by
  have hf := idx_facts t
  show (V m c main_v5 : S50x1.Idx → EReal) (((cfg0.win 4).blk t).view.emb (ix2 j (0 : Fin 1))) = _
  have e : ((cfg0.win 4).blk t).view.emb (ix2 j (0 : Fin 1)) = ix2 j (0 : Fin 1) := by
    funext a; apply Fin.ext
    match a with
    | ⟨0, _⟩ => show win0_4.index t (0 : Fin 2) * 50 + 1 * j.val = j.val; omega
    | ⟨1, _⟩ => show win0_4.index t (1 : Fin 2) * 1 + 1 * 0 = 0; omega
  rw [e]
  exact V_v5 m c j

theorem blk5 (c : Dev nD) (t : Fin cfg0.N) (i : Fin 7) (j k : Fin 50) :
    (iblk m c 5 t : S7x50x50.Idx → EReal) (ix3 i j k) = aWmid m c (ix3 i k j) := by
  have hf := idx_facts t
  show (V m c main_v7 : S7x50x50.Idx → EReal) (((cfg0.win 5).blk t).view.emb (ix3 i j k)) = _
  have e : ((cfg0.win 5).blk t).view.emb (ix3 i j k) = ix3 i j k := by
    funext a; apply Fin.ext
    match a with
    | ⟨0, _⟩ => show win0_5.index t (0 : Fin 3) * 7 + 1 * i.val = i.val; omega
    | ⟨1, _⟩ => show win0_5.index t (1 : Fin 3) * 50 + 1 * j.val = j.val; omega
    | ⟨2, _⟩ => show win0_5.index t (2 : Fin 3) * 50 + 1 * k.val = k.val; omega
  rw [e]
  exact V_v7 m c i j k

theorem blk6 (c : Dev nD) (t : Fin cfg0.N) (i : Fin 7) (j : Fin 50) :
    (iblk m c 6 t : S7x50x1.Idx → EReal) (ix3 i j (0 : Fin 1)) = aBmid m c (ix2 i j) := by
  have hf := idx_facts t
  show (V m c main_v8 : S7x50x1.Idx → EReal) (((cfg0.win 6).blk t).view.emb (ix3 i j (0 : Fin 1))) = _
  have e : ((cfg0.win 6).blk t).view.emb (ix3 i j (0 : Fin 1)) = ix3 i j (0 : Fin 1) := by
    funext a; apply Fin.ext
    match a with
    | ⟨0, _⟩ => show win0_6.index t (0 : Fin 3) * 7 + 1 * i.val = i.val; omega
    | ⟨1, _⟩ => show win0_6.index t (1 : Fin 3) * 50 + 1 * j.val = j.val; omega
    | ⟨2, _⟩ => show win0_6.index t (2 : Fin 3) * 1 + 1 * 0 = 0; omega
  rw [e]
  exact V_v8 m c i j

theorem blk7 (c : Dev nD) (t : Fin cfg0.N) (c' : Fin 3) (k : Fin 50) :
    (iblk m c 7 t : S3x50.Idx → EReal) (ix2 c' k) = aWout m c (ix2 k c') := by
  have hf := idx_facts t
  show (V m c main_v10 : S3x50.Idx → EReal) (((cfg0.win 7).blk t).view.emb (ix2 c' k)) = _
  have e : ((cfg0.win 7).blk t).view.emb (ix2 c' k) = ix2 c' k := by
    funext a; apply Fin.ext
    match a with
    | ⟨0, _⟩ => show win0_7.index t (0 : Fin 2) * 3 + 1 * c'.val = c'.val; omega
    | ⟨1, _⟩ => show win0_7.index t (1 : Fin 2) * 50 + 1 * k.val = k.val; omega
  rw [e]
  exact V_v10 m c c' k

theorem blk8 (c : Dev nD) (t : Fin cfg0.N) (c' : Fin 3) :
    (iblk m c 8 t : S3x1.Idx → EReal) (ix2 c' (0 : Fin 1)) = aBout m c (ix1 c') := by
  have hf := idx_facts t
  show (V m c main_v11 : S3x1.Idx → EReal) (((cfg0.win 8).blk t).view.emb (ix2 c' (0 : Fin 1))) = _
  have e : ((cfg0.win 8).blk t).view.emb (ix2 c' (0 : Fin 1)) = ix2 c' (0 : Fin 1) := by
    funext a; apply Fin.ext
    match a with
    | ⟨0, _⟩ => show win0_8.index t (0 : Fin 2) * 3 + 1 * c'.val = c'.val; omega
    | ⟨1, _⟩ => show win0_8.index t (1 : Fin 2) * 1 + 1 * 0 = 0; omega
  rw [e]
  exact V_v11 m c c'

/-! ## The result array -/

/-- The network depends on its weights and its input row only through their values. -/
theorem net_congr {Win Win' : Fin 3 → Fin 50 → EReal} {bin bin' : Fin 50 → EReal}
    {Wmid Wmid' : Fin 7 → Fin 50 → Fin 50 → EReal} {bmid bmid' : Fin 7 → Fin 50 → EReal}
    {Wout Wout' : Fin 50 → Fin 3 → EReal} {bout bout' : Fin 3 → EReal} {u u' : Fin 3 → EReal}
    (h1 : ∀ k j, Win k j = Win' k j) (h2 : ∀ j, bin j = bin' j) (h3 : ∀ i k j, Wmid i k j = Wmid' i k j)
    (h4 : ∀ i j, bmid i j = bmid' i j) (h5 : ∀ k c, Wout k c = Wout' k c) (h6 : ∀ c, bout c = bout' c)
    (h7 : ∀ k, u k = u' k) :
    Cert.Mlp.net Win bin Wmid bmid Wout bout u = Cert.Mlp.net Win' bin' Wmid' bmid' Wout' bout' u' := by
  obtain rfl : Win = Win' := funext fun k => funext fun j => h1 k j
  obtain rfl : bin = bin' := funext h2
  obtain rfl : Wmid = Wmid' := funext fun i => funext fun k => funext fun j => h3 i k j
  obtain rfl : bmid = bmid' := funext fun i => funext fun j => h4 i j
  obtain rfl : Wout = Wout' := funext fun k => funext fun c => h5 k c
  obtain rfl : bout = bout' := funext h6
  obtain rfl : u = u' := funext h7
  rfl

/-- The [3, 2000000] array the region leaves: entry (c', n) is output c' of the network at input row n. -/
def G9 (c : Dev nD) : S3x2000000.Idx → EReal := fun i =>
  Cert.Mlp.netOf (aX m c) (aY m c) (aZ m c) (aWin m c) (aBin m c) (aWmid m c) (aBmid m c) (aWout m c) (aBout m c) (i 1) (i 0)

theorem G9_apply (c : Dev nD) (c' : Fin 3) (n : Fin 2000000) : G9 m c (ix2 c' n)
    = Cert.Mlp.netOf (aX m c) (aY m c) (aZ m c) (aWin m c) (aBin m c) (aWmid m c) (aBmid m c) (aWout m c) (aBout m c) n c' := rfl

/-- What grid point t writes back is block t of that array. -/
theorem flushed_eq (c : Dev nD) (t : Fin cfg0.N) :
    (dats m 0 c).flushed 9 t = ((cfg0.win 9).blk t).view.read (Elt Ideal) (G9 m c) := by
  show (cfg0.win 9).cut (grid0.coords t) ((dats m 0 c).after 9 t) = _
  rw [after0_9]
  refine funext fun (y : S3x16000.Idx) => ?_
  obtain ⟨c', q, rfl⟩ : ∃ (c' : Fin 3) (q : Fin 16000), y = ix2 c' q := ⟨y 0, y 1, eq_ix2 y⟩
  have hf := idx_facts t
  have e : ((cfg0.win 9).blk t).view.emb (ix2 c' q) = ix2 c' (lane t q) := by
    funext a; apply Fin.ext
    match a with
    | ⟨0, _⟩ => show win0_9.index t (0 : Fin 2) * 3 + 1 * c'.val = c'.val; omega
    | ⟨1, _⟩ => show win0_9.index t (1 : Fin 2) * 16000 + 1 * q.val = t.val * 16000 + q.val; omega
  show out0_9 (iblk m c 0 t) (iblk m c 1 t) (iblk m c 2 t) (iblk m c 3 t) (iblk m c 4 t) (iblk m c 5 t) (iblk m c 6 t)
      (iblk m c 7 t) (iblk m c 8 t) (ix2 c' q) = G9 m c (((cfg0.win 9).blk t).view.emb (ix2 c' q))
  rw [e, G9_apply]
  refine (Block.block_apply (iblk m c 0 t) (iblk m c 1 t) (iblk m c 2 t) (iblk m c 3 t) (iblk m c 4 t) (iblk m c 5 t)
    (iblk m c 6 t) (iblk m c 7 t) (iblk m c 8 t) c' q).trans ?_
  exact congrFun (net_congr (fun k j => blk3 m c t j k) (fun j => blk4 m c t j) (fun i k j => blk5 m c t i j k)
    (fun i j => blk6 m c t i j) (fun k c'' => blk7 m c t c'' k) (fun c'' => blk8 m c t c'') (fun k => by
      match k with
      | ⟨0, _⟩ => exact blk0 m c t q
      | ⟨1, _⟩ => exact blk1 m c t q
      | ⟨2, _⟩ => exact blk2 m c t q)) c'

/-- An entry of the result array is in point t's block when its lane is one of the point's 16000 lanes. -/
theorem mem_blk9 (t : Fin cfg0.N) (i : S3x2000000.Idx) :
    i ∈ ((cfg0.win 9).blk t).view.set ↔ ∀ a : Fin 2, win0_9.index t a * S3x16000.size a ≤ (i a).val
      ∧ (i a).val < win0_9.index t a * S3x16000.size a + S3x16000.size a := by
  show i ∈ ((View.whole main_v12).slice (win0_9.rect t)).set ↔ _
  rw [View.set_slice_whole, Rect.mem_set_unit]
  exact Iff.rfl

/-- Every entry of the result array is written back by some point: lane n by point n / 16000. -/
theorem cover (i : S3x2000000.Idx) :
    ∃ t : Fin cfg0.N, (cfg0.win 9).flush t = true ∧ i ∈ ((cfg0.win 9).blk t).view.set := by
  have hi0 : (i 0).val < 3 := (i 0).isLt
  have hi1 : (i 1).val < 2000000 := (i 1).isLt
  have hN : (i 1).val / 16000 < grid0.N := by rw [N_0]; omega
  have hf := idx_facts ⟨(i 1).val / 16000, hN⟩
  have ht : (⟨(i 1).val / 16000, hN⟩ : Fin cfg0.N).val = (i 1).val / 16000 := rfl
  refine ⟨⟨(i 1).val / 16000, hN⟩, flush0_9 _, ?_⟩
  rw [mem_blk9]
  intro a
  match a with
  | ⟨0, _⟩ =>
    show win0_9.index ⟨(i 1).val / 16000, hN⟩ (0 : Fin 2) * 3 ≤ (i 0).val
      ∧ (i 0).val < win0_9.index ⟨(i 1).val / 16000, hN⟩ (0 : Fin 2) * 3 + 3
    omega
  | ⟨1, _⟩ =>
    show win0_9.index ⟨(i 1).val / 16000, hN⟩ (1 : Fin 2) * 16000 ≤ (i 1).val
      ∧ (i 1).val < win0_9.index ⟨(i 1).val / 16000, hN⟩ (1 : Fin 2) * 16000 + 16000
    omega

/-- The result array after the region: output c' of the network at input row n, at every entry (c', n). -/
theorem final (c : Dev nD) : (dats m 0 c).arrAt 9 cfg0.N = G9 m c :=
  (dats m 0 c).arrAt_eq_of_cover 9 (G9 m c) (fun t _ => flushed_eq m c t) (fun i => cover i)

end Cert.KernelIdeal.Arr

end
-- ==== Proof.KernelTail.lean ====
/-
  After the region: the kernel's three results.

  The host cuts row c' out of the region's [3, 2000000] result array, flattens it and makes it a [2000000, 1] column; none
  of this changes a value: the column's entry (n, 0) is the array's entry (c', n), which is output c' of the network at
  input row n. Every other array keeps what it held, so the argument arrays end unchanged.
-/
import proofs.«156876_j74036646248987_1_alg».proof.Proof.Gen.KernelIdeal.Frame
import proofs.«156876_j74036646248987_1_alg».proof.Proof.KernelArray

noncomputable section

namespace Cert.KernelIdeal.Tail

open Cert.KernelIdeal Cert.KernelIdeal.Gen Cert.KernelIdeal.Arr Idealize.ShloMosaic Idealize.ShloMosaic.TcCoe Idealize.SL.Sem
open Idealize.ShloMosaic.StableHlo Idealize.ShloMosaic.ValueIdx

variable (m : (ℓ : Loc nD τ sig) → Buf (Elt Ideal) ℓ)

/-- Row c' of a [3, 2000000] array cut out, flattened and made a column: entry (n, u) is the array's entry (c', n). -/
theorem col_of_row (G : FVec Ideal S3x2000000 .f32) (c' : Fin 3) (off : Fin 2 → ℕ) (hoff : off = ![c'.val, 0])
    (hs : S3x2000000.Slices off S1x2000000) (n : Fin 2000000) (u : Fin 1) :
    shapeCast S2000000x1 (shapeCast S2000000 (extractStridedSlice S1x2000000 off G hs) shapeCasts_S1x2000000_S2000000)
        shapeCasts_S2000000_S2000000x1 (ix2 n u) = G (ix2 c' n) := by
  subst hoff
  rw [PlainDot.shapeCast_a_a1_apply, shapeCast_1a_a_apply]
  exact extractStridedSlice_apply _ _ _ _ (ix2 c' n) (fun a => by
    match a with
    | ⟨0, _⟩ => show c'.val = c'.val + 0; omega
    | ⟨1, _⟩ => show n.val = 0 + n.val; omega)

/-- When the region ends, its result array holds the network's outputs at every entry. -/
theorem region_result (c : Dev nD) :
    (Pipeline.withArrays (cfgs 0).spec c (V0 m c) (fun w => (dats m 0 c).arrAt w (cfgs 0).N) (Proc.devRef .tc main_v12)
      : S3x2000000.Idx → EReal) = G9 m c :=
  (Pipeline.withArrays_arr spec0 launch0.win.arr_inj c _ _ 9).trans (final m c)

/-- Result 0 of the kernel's program: row 0 of the region's result array as a column, which is output 0 of the network. -/
theorem tail0 (c : Dev nD) : (Pipeline.afterTail₀ cfgs (dats m) 0 (V0 m) [hostOps1] c main_v15 : S2000000x1.Idx → EReal)
    = Cert.Mlp.outArr (aX m c) (aY m c) (aZ m c) (aWin m c) (aBin m c) (aWmid m c) (aBmid m c) (aWout m c) (aBout m c) 0 := by
  unfold Pipeline.afterTail₀
  show StableHlo.after hostOps1 _ (Proc.devRef .tc main_v15) = _
  after_results
  funext i
  obtain ⟨n, u, rfl⟩ : ∃ (n : Fin 2000000) (u : Fin 1), i = ix2 n u := ⟨i 0, i 1, eq_ix2 i⟩
  show shapeCast S2000000x1 (shapeCast S2000000 (extractStridedSlice S1x2000000 ![0, 0]
      (Pipeline.withArrays (cfgs 0).spec c (V0 m c) (fun w => (dats m 0 c).arrAt w (cfgs 0).N) (Proc.devRef .tc main_v12))
      slices_S3x2000000_S1x2000000_0_0) shapeCasts_S1x2000000_S2000000) shapeCasts_S2000000_S2000000x1 (ix2 n u) = _
  rw [region_result m c]
  exact col_of_row (G9 m c) 0 _ rfl _ n u

/-- Result 1 of the kernel's program: row 1 of the region's result array as a column, which is output 1 of the network. -/
theorem tail1 (c : Dev nD) : (Pipeline.afterTail₀ cfgs (dats m) 0 (V0 m) [hostOps1] c main_v18 : S2000000x1.Idx → EReal)
    = Cert.Mlp.outArr (aX m c) (aY m c) (aZ m c) (aWin m c) (aBin m c) (aWmid m c) (aBmid m c) (aWout m c) (aBout m c) 1 := by
  unfold Pipeline.afterTail₀
  show StableHlo.after hostOps1 _ (Proc.devRef .tc main_v18) = _
  after_results
  funext i
  obtain ⟨n, u, rfl⟩ : ∃ (n : Fin 2000000) (u : Fin 1), i = ix2 n u := ⟨i 0, i 1, eq_ix2 i⟩
  show shapeCast S2000000x1 (shapeCast S2000000 (extractStridedSlice S1x2000000 ![1, 0]
      (Pipeline.withArrays (cfgs 0).spec c (V0 m c) (fun w => (dats m 0 c).arrAt w (cfgs 0).N) (Proc.devRef .tc main_v12))
      slices_S3x2000000_S1x2000000_1_0) shapeCasts_S1x2000000_S2000000) shapeCasts_S2000000_S2000000x1 (ix2 n u) = _
  rw [region_result m c]
  exact col_of_row (G9 m c) 1 _ rfl _ n u

/-- Result 2 of the kernel's program: row 2 of the region's result array as a column, which is output 2 of the network. -/
theorem tail2 (c : Dev nD) : (Pipeline.afterTail₀ cfgs (dats m) 0 (V0 m) [hostOps1] c main_v21 : S2000000x1.Idx → EReal)
    = Cert.Mlp.outArr (aX m c) (aY m c) (aZ m c) (aWin m c) (aBin m c) (aWmid m c) (aBmid m c) (aWout m c) (aBout m c) 2 := by
  unfold Pipeline.afterTail₀
  show StableHlo.after hostOps1 _ (Proc.devRef .tc main_v21) = _
  after_results
  funext i
  obtain ⟨n, u, rfl⟩ : ∃ (n : Fin 2000000) (u : Fin 1), i = ix2 n u := ⟨i 0, i 1, eq_ix2 i⟩
  show shapeCast S2000000x1 (shapeCast S2000000 (extractStridedSlice S1x2000000 ![2, 0]
      (Pipeline.withArrays (cfgs 0).spec c (V0 m c) (fun w => (dats m 0 c).arrAt w (cfgs 0).N) (Proc.devRef .tc main_v12))
      slices_S3x2000000_S1x2000000_2_0) shapeCasts_S1x2000000_S2000000) shapeCasts_S2000000_S2000000x1 (ix2 n u) = _
  rw [region_result m c]
  exact col_of_row (G9 m c) 2 _ rfl _ n u

/-- The kernel's program runs, ends with its three results at the network's three outputs, and leaves its arguments
    unchanged. -/
theorem run_values (ρ : Dev nD → PrngReg) :
    θ_run defs (onTc (τ := τ) (main (F := Ideal))) ⟨m, fun _ => 0, ρ⟩ (fun r => ∀ c : Dev nD,
      r.2.mem ((c.tc : Thread nD τ).loc main_v15)
        = Cert.Mlp.outArr (aX m c) (aY m c) (aZ m c) (aWin m c) (aBin m c) (aWmid m c) (aBmid m c) (aWout m c) (aBout m c) 0
      ∧ r.2.mem ((c.tc : Thread nD τ).loc main_v18)
        = Cert.Mlp.outArr (aX m c) (aY m c) (aZ m c) (aWin m c) (aBin m c) (aWmid m c) (aBmid m c) (aWout m c) (aBout m c) 1
      ∧ r.2.mem ((c.tc : Thread nD τ).loc main_v21)
        = Cert.Mlp.outArr (aX m c) (aY m c) (aZ m c) (aWin m c) (aBin m c) (aWmid m c) (aBmid m c) (aWout m c) (aBout m c) 2
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨
      ((h c).2 main_v15 (Pipeline.mem_restRefs_of main_v15 (by decide) (by decide))).trans (tail0 m c),
      ((h c).2 main_v18 (Pipeline.mem_restRefs_of main_v18 (by decide) (by decide))).trans (tail1 m c),
      ((h c).2 main_v21 (Pipeline.mem_restRefs_of main_v21 (by decide) (by decide))).trans (tail2 m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c),
      ((h c).2 main_arg8 (Pipeline.mem_restRefs_of main_arg8 (by decide) (by decide))).trans (W_main_arg8 m (dats m) c)⟩)
    (run_main m ρ)

end Cert.KernelIdeal.Tail

end
-- ==== Proof.lean ====
/-
  The certificate of a nine-layer network applied row by row to 2000000 rows of three numbers.

  Both programs compute, for every input row, three affine outputs of the last of eight hidden rows of fifty numbers, each
  hidden row the hyperbolic tangent of an affine map of the row before (Proof/Spec.lean). The reference keeps the rows of
  the problem as rows and multiplies by each weight matrix from the right. The kernel keeps them along the lanes,
  16000 rows a grid point: it works on the transposed arrays, multiplies by each transposed weight matrix from the left
  and adds each bias as a column, after cutting its matrix operands to a shorter float format, which is the identity
  over the extended reals. Entry by entry the two differ only in the order of the two factors of each product under the
  sums, and multiplication of extended reals is commutative; no input need be finite for that.

  The kernel side: one layer at a column (Proof/KernelLayers.lean), the block a grid point stores (Proof/KernelBlock.lean),
  the array the 125 blocks fill (Proof/KernelArray.lean), the three results cut from it (Proof/KernelTail.lean). The
  reference side: its run read layer by layer (Proof/RefNet.lean). The frames of the two kernel programs and the
  reference's run are the generated ones.
-/
import proofs.«156876_j74036646248987_1_alg».proof.Defs
import proofs.«156876_j74036646248987_1_alg».proof.Proof.Gen.Kernel
import proofs.«156876_j74036646248987_1_alg».proof.Proof.Gen.Kernel.Skeleton
import proofs.«156876_j74036646248987_1_alg».proof.Proof.Gen.Kernel.Launch
import proofs.«156876_j74036646248987_1_alg».proof.Proof.Gen.Kernel.Points
import proofs.«156876_j74036646248987_1_alg».proof.Proof.Gen.Kernel.Frame
import proofs.«156876_j74036646248987_1_alg».proof.Proof.Gen.KernelIdeal
import proofs.«156876_j74036646248987_1_alg».proof.Proof.Gen.KernelIdeal.Skeleton
import proofs.«156876_j74036646248987_1_alg».proof.Proof.Gen.KernelIdeal.Launch
import proofs.«156876_j74036646248987_1_alg».proof.Proof.Gen.KernelIdeal.Points
import proofs.«156876_j74036646248987_1_alg».proof.Proof.Gen.KernelIdeal.Frame
import proofs.«156876_j74036646248987_1_alg».proof.Proof.Gen.ReferenceIdeal
import proofs.«156876_j74036646248987_1_alg».proof.Proof.Gen.Pre_finite_inputs
import proofs.«156876_j74036646248987_1_alg».proof.Proof.Gen.ReferenceIdeal.Run
import proofs.«156876_j74036646248987_1_alg».proof.Proof.Gen.ReferenceIdeal.Read
import proofs.«156876_j74036646248987_1_alg».proof.Proof.RefNet
import proofs.«156876_j74036646248987_1_alg».proof.Proof.KernelTail
import Idealize.ShloMosaic.Adequacy
import Idealize.ShloMosaic.Init

noncomputable section

namespace Cert.Proof

open Idealize.ShloMosaic Idealize.ShloMosaic.TcCoe Idealize.SL.Sem

/-- The word-level kernel runs and leaves its arguments unchanged. -/
theorem frame_kernel : Cert.frame_Kernel := fun m ρ _ => Cert.Kernel.Gen.frame m ρ

/-- The idealized kernel runs and leaves its arguments unchanged. -/
theorem frame_kernelIdeal : Cert.frame_KernelIdeal := fun m ρ _ => Cert.KernelIdeal.Gen.frame m ρ

/-- The idealized reference runs and leaves its arguments unchanged: its run, the three results dropped. -/
theorem frame_referenceIdeal : Cert.frame_ReferenceIdeal := fun m ρ _ =>
  (θ_run Cert.ReferenceIdeal.defs _ _).mono (fun _ h c => (h c).2.2.2) (Cert.ReferenceIdeal.Value.run (F := Ideal) m ρ)

/-- The idealization rewrote no operation. -/
theorem preserves : Cert.preserves_Kernel_KernelIdeal := trivial

/-- From memories that agree on the nine arguments both programs end with the network's three outputs, row by row, as
    their three results. -/
theorem algebraic : Cert.algebraic_KernelIdeal_ReferenceIdeal := by
  intro m ρ m' ρ' _ hagree
  refine ⟨_, _, _, Cert.KernelIdeal.Tail.run_values m ρ, ?_⟩
  refine (θ_run Cert.ReferenceIdeal.defs _ _).mono (fun _ h c => ⟨(h c).1.trans ?_, (h c).2.1.trans ?_, (h c).2.2.1.trans ?_, (h c).2.2.2⟩)
    (Cert.ReferenceIdeal.Value.run (F := Ideal) m' ρ')
  · rw [Cert.ReferenceIdeal.Read.val_main_v73_eq, Cert.ReferenceIdeal.RefNet.out0, (hagree c).1, (hagree c).2.1, (hagree c).2.2.1,
      (hagree c).2.2.2.1, (hagree c).2.2.2.2.1, (hagree c).2.2.2.2.2.1, (hagree c).2.2.2.2.2.2.1, (hagree c).2.2.2.2.2.2.2.1,
      (hagree c).2.2.2.2.2.2.2.2]
  · rw [Cert.ReferenceIdeal.Read.val_main_v74_eq, Cert.ReferenceIdeal.RefNet.out1, (hagree c).1, (hagree c).2.1, (hagree c).2.2.1,
      (hagree c).2.2.2.1, (hagree c).2.2.2.2.1, (hagree c).2.2.2.2.2.1, (hagree c).2.2.2.2.2.2.1, (hagree c).2.2.2.2.2.2.2.1,
      (hagree c).2.2.2.2.2.2.2.2]
  · rw [Cert.ReferenceIdeal.Read.val_main_v75_eq, Cert.ReferenceIdeal.RefNet.out2, (hagree c).1, (hagree c).2.1, (hagree c).2.2.1,
      (hagree c).2.2.2.1, (hagree c).2.2.2.2.1, (hagree c).2.2.2.2.2.1, (hagree c).2.2.2.2.2.2.1, (hagree c).2.2.2.2.2.2.2.1,
      (hagree c).2.2.2.2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
